-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S_ : Shape := ⟨0, ![]⟩

class Facts : Prop where
  bcast_S_S1x128x4096x1 : S_.BroadcastsInDim S1x128x4096x1 (![] : Fin 0 → Fin S1x128x4096x1.rank)
  reducesTo_S1x128x4096x1_S_d0_1_2_3 : S1x128x4096x1.ReducesTo [0, 1, 2, 3] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S17x3x128x4096 : S_.BroadcastsInDim S17x3x128x4096 (![] : Fin 0 → Fin S17x3x128x4096.rank)
  reducesTo_S17x3x128x4096_S_d0_1_2_3 : S17x3x128x4096.ReducesTo [0, 1, 2, 3] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S1x128x4096x1 .f32) (main_arg1 : FVec F S3x4096x4096 .f32) (main_arg2 : FVec F S17x3x128x4096 .f32) (main_arg3 : FVec F S384x128 .f32) (main_arg4 : FVec F S384 .f32) : IVec S_ 1 :=
  let main_v0 : FVec F S1x128x4096x1 .f32 := Host.absf main_arg0
  let main_cst : FVec F S_ .f32 := constant S_ .f32 0x7F800000#32
  let main_v1 : FVec F S1x128x4096x1 .f32 := broadcastInDim S1x128x4096x1 ![] bcast_S_S1x128x4096x1 main_cst
  let main_v2 : IVec S1x128x4096x1 1 := cmpf .olt main_v0 main_v1
  let main_c : IVec S_ 1 := constantI S_ 1 1#1
  let main_v3 : IVec S_ 1 := (fun x v => Host.reduce IntOp.andi x v reducesTo_S1x128x4096x1_S_d0_1_2_3 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S17x3x128x4096 .f32 := Host.absf main_arg2
  let main_cst_2 : FVec F S_ .f32 := constant S_ .f32 0x7F800000#32
  let main_v10 : FVec F S17x3x128x4096 .f32 := broadcastInDim S17x3x128x4096 ![] bcast_S_S17x3x128x4096 main_cst_2
  let main_v11 : IVec S17x3x128x4096 1 := cmpf .olt main_v9 main_v10
  let main_c_3 : IVec S_ 1 := constantI S_ 1 1#1
  let main_v12 : IVec S_ 1 := (fun x v => Host.reduce IntOp.andi x v reducesTo_S17x3x128x4096_S_d0_1_2_3 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_v13 main_v16
-- ==== Kernel.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S128x4096 : Shape := ⟨2, ![128, 4096]⟩
abbrev S384x1 : Shape := ⟨2, ![384, 1]⟩
abbrev S384x4096 : Shape := ⟨2, ![384, 4096]⟩
abbrev S3x128x4096 : Shape := ⟨3, ![3, 128, 4096]⟩
abbrev S16x3x128x512 : Shape := ⟨4, ![16, 3, 128, 512]⟩
abbrev S128x512 : Shape := ⟨2, ![128, 512]⟩
abbrev S3x128x512 : Shape := ⟨3, ![3, 128, 512]⟩
abbrev S1x4096x512 : Shape := ⟨3, ![1, 4096, 512]⟩
abbrev S1x128x4096 : Shape := ⟨3, ![1, 128, 4096]⟩
abbrev S4096x512 : Shape := ⟨2, ![4096, 512]⟩

abbrev nBuf : Space → Nat
  | .hbm => 12
  | .vmem => 18
  | .smem => 0
  | _ => 0

abbrev bufTy : (tb : Table) → Fin (tcTables nBuf tb) → BufTy
  | .hbm, ⟨0, _⟩ => ⟨S1x128x4096x1, .f32⟩
  | .hbm, ⟨1, _⟩ => ⟨S3x4096x4096, .f32⟩
  | .hbm, ⟨2, _⟩ => ⟨S17x3x128x4096, .f32⟩
  | .hbm, ⟨3, _⟩ => ⟨S384x128, .f32⟩
  | .hbm, ⟨4, _⟩ => ⟨S384, .f32⟩
  | .hbm, ⟨5, _⟩ => ⟨S128x4096, .f32⟩
  | .hbm, ⟨6, _⟩ => ⟨S384x1, .f32⟩
  | .hbm, ⟨7, _⟩ => ⟨S384x4096, .f32⟩
  | .hbm, ⟨8, _⟩ => ⟨S3x128x4096, .f32⟩
  | .hbm, ⟨9, _⟩ => ⟨S128x4096, .f32⟩
  | .hbm, ⟨10, _⟩ => ⟨S128x4096, .f32⟩
  | .hbm, ⟨11, _⟩ => ⟨S1x128x4096, .f32⟩
  | .local _ .vmem, ⟨0, _⟩ => ⟨S384x128, .f32⟩
  | .local _ .vmem, ⟨1, _⟩ => ⟨S128x4096, .f32⟩
  | .local _ .vmem, ⟨2, _⟩ => ⟨S384x1, .f32⟩
  | .local _ .vmem, ⟨3, _⟩ => ⟨S384x4096, .f32⟩
  | .local _ .vmem, ⟨4, _⟩ => ⟨S16x3x128x512, .f32⟩
  | .local _ .vmem, ⟨5, _⟩ => ⟨S16x3x128x512, .f32⟩
  | .local _ .vmem, ⟨6, _⟩ => ⟨S128x512, .f32⟩
  | .local _ .vmem, ⟨7, _⟩ => ⟨S128x512, .f32⟩
  | .local _ .vmem, ⟨8, _⟩ => ⟨S3x128x4096, .f32⟩
  | .local _ .vmem, ⟨9, _⟩ => ⟨S1x4096x512, .f32⟩
  | .local _ .vmem, ⟨10, _⟩ => ⟨S1x4096x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S1x128x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x3x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 3], ![false, false]⟩

def k2_off1 (i : grid2.Coords) : Fin 3 → Nat :=
  let arg1 : BitVec 32 := BitVec.ofNat 32 (i 1).val
  let v3 : Index := Scalar.indexCast arg1
  let c0 : Index := 0#32
  let c0_1 : Index := 0#32
  ![v3.toNat, 0, 0]
def k2_cond2 (i : grid2.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_9 : BitVec 32 := 0#32
  let v18 : BitVec 1 := Scalar.cmpi .ne v17 c0_i32_9
  v18

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S3x128x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S128x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S1x128x4096x1_S128x4096 : S1x128x4096x1.ShapeCasts S128x4096
  shapeCasts_S384_S384x1 : S384.ShapeCasts S384x1
  inb_S384x128_S384x128_0_0 : ∀ a, (![0, 0] : Fin 2 → Nat) a + S384x128.size a ≤ S384x128.size a
  h_S384x128 : 0 < S384x128.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S384x1_S384x1_0_0 : ∀ a, (![0, 0] : Fin 2 → Nat) a + S384x1.size a ≤ S384x1.size a
  h_S384x1 : 0 < S384x1.numel
  shapeCasts_S384x1_S384x1 : S384x1.ShapeCasts S384x1
  broadcasts_S384x1_S384x4096 : S384x1.Broadcasts S384x4096
  inb_S384x4096_S384x4096_0_0 : ∀ a, (![0, 0] : Fin 2 → Nat) a + S384x4096.size a ≤ S384x4096.size a
  h_S384x4096 : 0 < S384x4096.numel
  shapeCasts_S384x4096_S3x128x4096 : S384x4096.ShapeCasts S3x128x4096
  inb_S16x3x128x512_S16x3x128x512_0_0_0_0 : ∀ a, (![0, 0, 0, 0] : Fin 4 → Nat) a + S16x3x128x512.size a ≤ S16x3x128x512.size a
  h_S16x3x128x512 : 0 < S16x3x128x512.numel
  reduces_S16x3x128x512_S3x128x512 : S16x3x128x512.Reduces [0] S3x128x512
  reduces_S3x128x512_S128x512 : S3x128x512.Reduces [0] S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S1x128x4096 : 0 < S1x128x4096.numel
  shapeCasts_S1x128x4096_S128x4096 : S1x128x4096.ShapeCasts S128x4096
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bcast_S128x4096_S1x128x4096_1_2 : S128x4096.BroadcastsInDim S1x128x4096 (![1, 2] : Fin 2 → Fin S1x128x4096.rank)
  dot_S384x128_S128x4096_S384x4096_1_0_0_1_n_n_wf : DotDims.WF S384x128 S128x4096 S384x4096 [1] [0] [0] [1] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x128.size a ≤ S384x128.size a
  hwx0_0 : ∀ i : grid0.Coords, EltTy.bits .f32 = 32 ∨ (Rect.block (s := S384x128) S384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x1.size a ≤ S384x1.size a
  hwx0_2 : ∀ i : grid0.Coords, EltTy.bits .f32 = 32 ∨ (Rect.block (s := S384x1) S384x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x4096.size a ≤ S384x4096.size a
  hwx0_3 : ∀ i : grid0.Coords, EltTy.bits .f32 = 32 ∨ (Rect.block (s := S384x4096) S384x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16x3x128x512.size a < S17x3x128x4096.size a
  hwx1_0 : ∀ i : grid1.Coords, EltTy.bits .f32 = 32 ∨ (Rect.unit (s := S17x3x128x4096) (fun a => cc1_transform_0 i a * S16x3x128x512.size a) (fun a => (Pipeline.Clip.of (cc1_transform_0 i a) (S16x3x128x512.size a) (S17x3x128x4096.size a)).extent (S16x3x128x512.size a)) fun a => Pipeline.Clip.inb (Pipeline.Clip.ok_of (hstart1_0 i a))).WholeWords (EltTy.packing .f32)
  hwxs1_0 : ∀ i : grid1.Coords, EltTy.bits .f32 = 32 ∨ (Rect.unit (s := S16x3x128x512) (fun _ => 0) (fun a => (Pipeline.Clip.of (cc1_transform_0 i a) (S16x3x128x512.size a) (S17x3x128x4096.size a)).extent (S16x3x128x512.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x4096.size a
  hwx1_1 : ∀ i : grid1.Coords, EltTy.bits .f32 = 32 ∨ (Rect.block (s := S128x4096) S128x512.size (cc1_transform_1 i) (hinb1_1 i)).WholeWords (EltTy.packing .f32)
  hrank2 : 0 < grid2.rank
  k2_off1_inb : ∀ i : grid2.Coords, ∀ a, (k2_off1 i) a + S1x128x4096.size a ≤ S3x128x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S3x128x4096.size a ≤ S3x128x4096.size a
  hwx2_0 : ∀ i : grid2.Coords, EltTy.bits .f32 = 32 ∨ (Rect.block (s := S3x128x4096) S3x128x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x512.size a ≤ S3x4096x4096.size a
  hwx2_1 : ∀ i : grid2.Coords, EltTy.bits .f32 = 32 ∨ (Rect.block (s := S3x4096x4096) S1x4096x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x4096.size a
  hwx2_2 : ∀ i : grid2.Coords, EltTy.bits .f32 = 32 ∨ (Rect.block (s := S128x4096) S128x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S128x4096.size a
  hwx2_3 : ∀ i : grid2.Coords, EltTy.bits .f32 = 32 ∨ (Rect.block (s := S128x4096) S128x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x512.size a ≤ S128x4096.size a
  hwx2_4 : ∀ i : grid2.Coords, EltTy.bits .f32 = 32 ∨ (Rect.block (s := S128x4096) S128x512.size (cc2_transform_4 i) (hinb2_4 i)).WholeWords (EltTy.packing .f32)

variable [Facts₀]

def dot_S384x128_S128x4096_S384x4096_1_0_0_1_n_n : DotDims S384x128 S128x4096 S384x4096 where
  lhsContracting := [1]
  rhsContracting := [0]
  lhsNonContracting := [0]
  rhsNonContracting := [1]
  lhsBatch := []
  rhsBatch := []
  wf := dot_S384x128_S128x4096_S384x4096_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg3) S384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_arg2) S16x3x128x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v4) S128x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S3x128x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S128x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S128x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S1x128x4096x1 : Shape := ⟨4, ![1, 128, 4096, 1]⟩
abbrev S3x4096x4096 : Shape := ⟨3, ![3, 4096, 4096]⟩
abbrev S17x3x128x4096 : Shape := ⟨4, ![17, 3, 128, 4096]⟩
abbrev S384x128 : Shape := ⟨2, ![384, 128]⟩
abbrev S384 : Shape := ⟨1, ![384]⟩
abbrev S128x4096 : Shape := ⟨2, ![128, 4096]⟩
abbrev S384x4096 : Shape := ⟨2, ![384, 4096]⟩
abbrev S384x1 : Shape := ⟨2, ![384, 1]⟩
abbrev S3x128x4096 : Shape := ⟨3, ![3, 128, 4096]⟩
abbrev S1x3x128x4096 : Shape := ⟨4, ![1, 3, 128, 4096]⟩
abbrev S16x3x128x4096 : Shape := ⟨4, ![16, 3, 128, 4096]⟩
abbrev S_ : Shape := ⟨0, ![]⟩
abbrev S1x128x4096 : Shape := ⟨3, ![1, 128, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1x128x4096x1, .f32⟩
  | .hbm, ⟨1, _⟩ => ⟨S3x4096x4096, .f32⟩
  | .hbm, ⟨2, _⟩ => ⟨S17x3x128x4096, .f32⟩
  | .hbm, ⟨3, _⟩ => ⟨S384x128, .f32⟩
  | .hbm, ⟨4, _⟩ => ⟨S384, .f32⟩
  | .hbm, ⟨5, _⟩ => ⟨S128x4096, .f32⟩
  | .hbm, ⟨6, _⟩ => ⟨S384x4096, .f32⟩
  | .hbm, ⟨7, _⟩ => ⟨S384x1, .f32⟩
  | .hbm, ⟨8, _⟩ => ⟨S384x4096, .f32⟩
  | .hbm, ⟨9, _⟩ => ⟨S384x4096, .f32⟩
  | .hbm, ⟨10, _⟩ => ⟨S3x128x4096, .f32⟩
  | .hbm, ⟨11, _⟩ => ⟨S3x128x4096, .f32⟩
  | .hbm, ⟨12, _⟩ => ⟨S1x3x128x4096, .f32⟩
  | .hbm, ⟨13, _⟩ => ⟨S16x3x128x4096, .f32⟩
  | .hbm, ⟨14, _⟩ => ⟨S17x3x128x4096, .f32⟩
  | .hbm, ⟨15, _⟩ => ⟨S_, .f32⟩
  | .hbm, ⟨16, _⟩ => ⟨S128x4096, .f32⟩
  | .hbm, ⟨17, _⟩ => ⟨S128x4096, .f32⟩
  | .hbm, ⟨18, _⟩ => ⟨S_, .f32⟩
  | .hbm, ⟨19, _⟩ => ⟨S128x4096, .f32⟩
  | .hbm, ⟨20, _⟩ => ⟨S128x4096, .f32⟩
  | .hbm, ⟨21, _⟩ => ⟨S1x128x4096, .f32⟩
  | _, _ => ⟨S1x128x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  shapeCasts_S1x128x4096x1_S128x4096 : S1x128x4096x1.ShapeCasts S128x4096
  bcast_S384_S384x1_0 : S384.BroadcastsInDim S384x1 (![0] : Fin 1 → Fin S384x1.rank)
  bcast_S384x1_S384x4096_0_1 : S384x1.BroadcastsInDim S384x4096 (![0, 1] : Fin 2 → Fin S384x4096.rank)
  shapeCasts_S384x4096_S3x128x4096 : S384x4096.ShapeCasts S3x128x4096
  bcast_S3x128x4096_S1x3x128x4096_1_2_3 : S3x128x4096.BroadcastsInDim S1x3x128x4096 (![1, 2, 3] : Fin 3 → Fin S1x3x128x4096.rank)
  slices_S17x3x128x4096_S16x3x128x4096_0_0_0_0 : S17x3x128x4096.Slices ![0, 0, 0, 0] S16x3x128x4096
  concatenates_S1x3x128x4096_S16x3x128x4096_S17x3x128x4096_d0 : Shape.Concatenates [S1x3x128x4096, S16x3x128x4096] S17x3x128x4096 0
  reducesTo_S17x3x128x4096_S128x4096_d0_1 : S17x3x128x4096.ReducesTo [0, 1] S128x4096
  h_S_ : 0 < S_.numel
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  dot_S384x128_S128x4096_S384x4096_1_0_0_1_n_n_wf : DotDims.WF S384x128 S128x4096 S384x4096 [1] [0] [0] [1] [] []
  dot_S3x128x4096_S3x4096x4096_S3x128x4096_2_1_1_2_0_0_wf : DotDims.WF S3x128x4096 S3x4096x4096 S3x128x4096 [2] [1] [1] [2] [0] [0]

variable [Facts₀]

def dot_S384x128_S128x4096_S384x4096_1_0_0_1_n_n : DotDims S384x128 S128x4096 S384x4096 where
  lhsContracting := [1]
  rhsContracting := [0]
  lhsNonContracting := [0]
  rhsNonContracting := [1]
  lhsBatch := []
  rhsBatch := []
  wf := dot_S384x128_S128x4096_S384x4096_1_0_0_1_n_n_wf
def dot_S3x128x4096_S3x4096x4096_S3x128x4096_2_1_1_2_0_0 : DotDims S3x128x4096 S3x4096x4096 S3x128x4096 where
  lhsContracting := [2]
  rhsContracting := [1]
  lhsNonContracting := [1]
  rhsNonContracting := [2]
  lhsBatch := [0]
  rhsBatch := [0]
  wf := dot_S3x128x4096_S3x4096x4096_S3x128x4096_2_1_1_2_0_0_wf

class Facts : Prop extends Facts₀ where

variable [Facts]
-- ==== Proof.K.Defs.lean ====
/-
  The data of the three kernel regions, each at the contents `V` its region is entered from.

  Region 0 (one grid point) stores Z = W · xv + b, a 384×4096 array, from the whole arrays W (384×128),
  xv (128×4096) and b (384×1).  Region 1 (eight points, one per 512-column tile) stores, in tile n of a
  128×4096 array, the sum over the first 16 frames and the 3 partitions of the frame buffer's tile n.
  Region 2 (8 × 3 points: column tile n, partition p) keeps in a scratch accumulator the running sum over
  partitions of z[p] · A[p][:, tile n]; at p = 0 the accumulator restarts from zero, and at p = 2 the output
  tile is stored as max(accumulator + frame sum + xv, 0).

  What the body leaves in a buffer is stated through the kernels' payload functions applied to the blocks the
  region reads; the accumulator is a recursion on the grid point.
-/
import proofs.«109399_j86242943304449_1_alg».proof.Proof.Gen.Kernel.Launch
import proofs.«109399_j86242943304449_1_alg».proof.Proof.Gen.Kernel.Skeleton
import proofs.«109399_j86242943304449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: Z = W · xv + b -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S384x128 := Rect.unit (s := S384x128) ![0, 0] S384x128.size inb_S384x128_S384x128_0_0
abbrev r0_1 : Rect S128x4096 := Rect.unit (s := S128x4096) ![0, 0] S128x4096.size inb_S128x4096_S128x4096_0_0
abbrev r0_2 : Rect S384x1 := Rect.unit (s := S384x1) ![0, 0] S384x1.size inb_S384x1_S384x1_0_0
abbrev r0_3 : Rect S384x4096 := Rect.unit (s := S384x4096) ![0, 0] S384x4096.size inb_S384x4096_S384x4096_0_0

/-- What the body leaves in the output buffer: the product plus the broadcast bias, of the three input blocks. -/
def out0_3 (x0 : Vec F S384x128 .f32) (x1 : Vec F S128x4096 .f32) (x2 : Vec F S384x1 .f32) : Vec F S384x4096 .f32 :=
  k0_pay1 x0 x1 x2

/-- Region 0's proof data: the arrays as found; each input buffer at its block, the output buffer at `out0_3`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the frame buffer summed over its first 16 frames and its partitions, tile by tile -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The frame buffer's staging buffer at point `t`: the 16 × 3 × 128 × 512 block of tile `t` laid on the part a fetch
    moves (here all of the buffer: frames 0 to 15 of 17 lie inside the array), unnamed contents elsewhere. -/
def x1_0 (c : Dev nD) (t : Fin cfg1.N) : Vec F S16x3x128x512 .f32 :=
  (cfg1.win 0).fill (cfg1.grid.coords t) (fun _ => (Elt.inhabited F _).default) (iblk1 V c 0 t)

abbrev r1_0 : Rect S16x3x128x512 := Rect.unit (s := S16x3x128x512) ![0, 0, 0, 0] S16x3x128x512.size inb_S16x3x128x512_S16x3x128x512_0_0_0_0
abbrev r1_1 : Rect S128x512 := Rect.unit (s := S128x512) ![0, 0] S128x512.size inb_S128x512_S128x512_0_0

/-- What the body leaves in the output buffer: the block summed over frames, then over partitions. -/
def out1_1 (x0 : Vec F S16x3x128x512 .f32) : Vec F S128x512 .f32 := k1_pay1 x0

def dat1 (c : Dev nD) : Dat τ (Elt F) Unit ℕ (UR sig nD τ) ℕ cfg1 c where
  A w := V c (Pipeline.arrRef spec1 w)
  after w t := match w with
    | ⟨0, _⟩ => x1_0 V c t
    | ⟨1, _⟩ => out1_1 (x1_0 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = x1_0 V c t := by dsimp only [dat1]
theorem after1_1 (c : Dev nD) (t : Fin cfg1.N) : (dat1 V c).after 1 t = out1_1 (x1_0 V c t) := by dsimp only [dat1]

/-! ## Region 2: the partition sum of z[p] · A[p], the frame sum and xv added, clamped below at zero -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangle of z's resident buffer the body loads at coordinates `i`: partition `i 1`'s 128 × 4096 slab. -/
abbrev rz (i : grid2.Coords) : Rect S3x128x4096 := Rect.unit (s := S3x128x4096) (k2_off1 i) S1x128x4096.size (k2_off1_inb i)
abbrev r2_1 : Rect S1x4096x512 := Rect.unit (s := S1x4096x512) ![0, 0, 0] S1x4096x512.size inb_S1x4096x512_S1x4096x512_0_0_0
abbrev r2_w : Rect S128x512 := Rect.unit (s := S128x512) ![0, 0] S128x512.size inb_S128x512_S128x512_0_0

/-- z's slab of the point's partition, as the body loads it. -/
def zslab (c : Dev nD) (t : Fin cfg2.N) : Vec F S1x128x4096 .f32 := View.ld (iblk2 V c 0 t) (rz (grid2.coords t))

/-- The accumulator after the body at position `n`: the point's product z[p] · A[p][:, tile] added to zero where the
    partition index is 0 (the points ≡ 0 mod 3), and otherwise to what the point before left. -/
def acc2 (c : Dev nD) : (n : ℕ) → n < cfg2.N → Vec F S128x512 .f32
  | 0, hn => k2_pay2 (zslab V c ⟨0, hn⟩) (iblk2 V c 1 ⟨0, hn⟩) (k2_pay1 (F := F))
  | n + 1, hn =>
    if (n + 1) % 3 = 0 then k2_pay2 (zslab V c ⟨n + 1, hn⟩) (iblk2 V c 1 ⟨n + 1, hn⟩) (k2_pay1 (F := F))
    else k2_pay2 (zslab V c ⟨n + 1, hn⟩) (iblk2 V c 1 ⟨n + 1, hn⟩) (acc2 c n (Nat.lt_of_succ_lt hn))

/-- The output buffer after the body at point `t` (read only where the body stores it, the points ≡ 2 mod 3). -/
def out2_4 (c : Dev nD) (t : Fin cfg2.N) : Vec F S128x512 .f32 :=
  k2_pay3 (acc2 V c t.val t.isLt) (iblk2 V c 2 t) (iblk2 V c 3 t)

/-- The scratch accumulator, a whole scoped buffer. -/
abbrev scM2 : Memref sig .tc .vmem S128x512 .f32 := Memref.whole cc2_scratch0

/-- The core's scoped buffers that are neither a staging buffer of region 2 nor its scratch, each at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region invariant before position `n`: before the first point the accumulator holds anything; afterwards what
    the point before left (`acc2`); the other scoped buffers and the generator register at anything. -/
def Phi2 (c : Dev nD) : (n : ℕ) → n ≤ cfg2.N → sProp 𝕄
  | 0, _ => iprop(rest2 (F := F) c ∗ (∃ d, owns (c : Thread nD τ) scM2 fullShare d) ∗ (∃ r, prngReg c r))
  | n + 1, hn => iprop(rest2 (F := F) c ∗ owns (c : Thread nD τ) scM2 fullShare (acc2 V c n hn) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

end Cert.Kernel.Hand

end
-- ==== Proof.K.Body0.lean ====
/-
  Region 0's body obligation: at its one grid point the body, handed W, xv and the bias column in its input
  buffers, leaves Z = W · xv + b in its output buffer.
-/
import proofs.«109399_j86242943304449_1_alg».proof.Proof.K.Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The zero offset of a rank-2 rectangle, as the constant function. -/
private theorem off2_zero : (![0, 0] : Fin 2 → Nat) = fun _ => 0 := by
  funext a; fin_cases a <;> rfl

/-- The one store through the whole output rectangle covers the output buffer. -/
private theorem cover0_3 (p0 : Vec F S384x4096 .f32) (y : S384x4096.Idx) :
    ∃ pc ∈ ([⟨r0_3, p0⟩] : List (View.Piece (Elt F) S384x4096 .f32)), y ∈ pc.1.set :=
  ⟨⟨r0_3, p0⟩, List.mem_singleton_self _, View.mem_set_unit_zero off2_zero inb_S384x4096_S384x4096_0_0 y⟩

set_option maxHeartbeats 1000000 in
/-- The body on whole staging memrefs, the three inputs' at read contents and the output's at anything, runs to the
    continuation holding the inputs' as they were and the output's at the product plus the broadcast bias of the inputs. -/
theorem sound_kernel0 (c : Dev nD) (E : Set ℕ) (i : grid0.Coords)
    (arg0 : Memref sig .tc .vmem S384x128 .f32) (harg0 : arg0.IsWhole)
    (arg1 : Memref sig .tc .vmem S128x4096 .f32) (harg1 : arg1.IsWhole)
    (arg2 : Memref sig .tc .vmem S384x1 .f32) (harg2 : arg2.IsWhole)
    (arg3 : Memref sig .tc .vmem S384x4096 .f32) (harg3 : arg3.IsWhole)
    (x0 : Vec F S384x128 .f32) (x1 : Vec F S128x4096 .f32) (x2 : Vec F S384x1 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (k0_pay1 x0 x1 x2)) -∗ K ⟨⟩))
      ⊢ wp frame (wpE (defs₀ (F := F)) Variants.none c none) E (cc0__conv_kernel i arg0 harg0 arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero off2_zero,
    View.readAt_eq_ld, View.readAt_eq_ld, View.readAt_eq_ld,
    View.ld_unit_zero off2_zero, View.ld_unit_zero off2_zero, View.ld_unit_zero off2_zero]

/-- Each input's current staging buffer holds its block at every point: the window is whole and never idle, so what a
    fetch brings, or what the body left when nothing is fetched, is the block read off the array. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's body obligation: at each of its eight points the body, handed the frame buffer's tile, leaves the
  tile's sum over the sixteen frames and the three partitions in its output buffer.
-/
import proofs.«109399_j86242943304449_1_alg».proof.Proof.K.Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The block at coordinates `i` ends inside the array on every axis: frames 0 to 15 of 17, all 3 partitions,
    all 128 rows, and columns 512·n to 512·n + 511 of 4096 for the tile n < 8. -/
private theorem clipOf1_0 (i : grid1.Coords) (a : Fin 4) :
    Pipeline.Clip.of (cc1_transform_0 i a) (S16x3x128x512.size a) (S17x3x128x4096.size a) = none := by
  have hi : (i 0).val < 8 := (i 0).isLt
  unfold Pipeline.Clip.of
  rw [if_pos]
  fin_cases a
  · show (0 + 1) * 16 ≤ 17; decide
  · show (0 + 1) * 3 ≤ 3; decide
  · show (0 + 1) * 128 ≤ 128; decide
  · show ((BitVec.ofNat 32 (i 0).val).toNat + 1) * 512 ≤ 4096
    rw [BitVec.toNat_ofNat]; omega

/-- No block of the frame buffer's window overhangs the array: frames 0 to 15 lie inside the 17, and the other axes tile. -/
theorem clip1_0 : ∀ (i : grid1.Coords) (a : Fin (cfg1.win 0).shape.rank), (cfg1.win 0).clip i a = none :=
  fun i a => clipOf1_0 i a

/-- The zero offsets of the rank-2 and rank-4 rectangles, as the constant function. -/
private theorem off2_zero : (![0, 0] : Fin 2 → Nat) = fun _ => 0 := by
  funext a; fin_cases a <;> rfl
private theorem off4_zero : (![0, 0, 0, 0] : Fin 4 → Nat) = fun _ => 0 := by
  funext a; fin_cases a <;> rfl

/-- The one store through the whole output rectangle covers the output buffer. -/
private theorem cover1_1 (p0 : Vec F S128x512 .f32) (y : S128x512.Idx) :
    ∃ pc ∈ ([⟨r1_1, p0⟩] : List (View.Piece (Elt F) S128x512 .f32)), y ∈ pc.1.set :=
  ⟨⟨r1_1, p0⟩, List.mem_singleton_self _, View.mem_set_unit_zero off2_zero inb_S128x512_S128x512_0_0 y⟩

set_option maxHeartbeats 1000000 in
/-- The body on whole staging memrefs, the input's at read contents and the output's at anything, runs to the
    continuation holding the input's as it was and the output's at the input summed over frames, then over partitions. -/
theorem sound_kernel1 (c : Dev nD) (E : Set ℕ) (i : grid1.Coords)
    (arg0 : Memref sig .tc .vmem S16x3x128x512 .f32) (harg0 : arg0.IsWhole)
    (arg1 : Memref sig .tc .vmem S128x512 .f32) (harg1 : arg1.IsWhole)
    (x0 : Vec F S16x3x128x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ K ⟨⟩))
      ⊢ wp frame (wpE (defs₀ (F := F)) Variants.none c none) E (cc1__fifo_sum_kernel i arg0 harg0 arg1 harg1) K := by
  simp only [cc1__fifo_sum_kernel_eq_skeleton]; unfold cc1__fifo_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover1_1 _), View.canon_unit_zero off2_zero,
    View.readAt_eq_ld, View.ld_unit_zero off4_zero]

/-- The frame buffer's current staging buffer holds, at every point, the tile's block laid on the part a fetch moves,
    which is all of the buffer: what a fetch brings, or what the body left when nothing is fetched, and nothing of the
    prior contents since no block overhangs. -/
theorem before1_0 (c : Dev nD) (t : Fin cfg1.N) (d) : (dat1 V c).before 0 t d = x1_0 V c t := by
  rw [(dat1 V c).before_in_eq_fetched 0 rfl (fun _ => rfl)
    (fun t t' _ => funext fun a => (clip1_0 _ a).trans (clip1_0 _ a).symm)
    (fun t => by rw [after1_0]; unfold x1_0; rw [Window.cut_fill]; unfold Dat.blockOf iblk1; rw [A_eq1]) t d]
  unfold Dat.fetched Dat.blockOf x1_0 iblk1
  rw [A_eq1]
  exact Pipeline.fill_of_clip_none (cfg := cfg1) 0 _ (clip1_0 _) _ _ _

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the tile's block, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply (sound_kernel1 c Set.univ _ _ _ _ _ (x1_0 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2's body obligation, and its invariant's two ends: the accumulator is restarted where the partition index
  is 0, added to at every point, and read into the output where the partition index is 2.
-/
import proofs.«109399_j86242943304449_1_alg».proof.Proof.K.Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's two conditions, in closed form over the grid -/

/-- The first conditional's condition (the partition index is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 3). -/
theorem hcond2_0 : ∀ t : Fin cfg2.N, cond2_0 (grid2.coords t) ↔ t.val % 3 = 0 :=
  (by decide +kernel : ∀ t : Fin grid2.N, cond2_0 (grid2.coords t) ↔ t.val % 3 = 0)

/-- The second conditional's condition (the partition index is 2). -/
abbrev cond2_1 (i : grid2.Coords) : Prop := k2_cond2 i = 1#1
/-- It holds at the points ≡ 2 (mod 3). -/
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the partition index is not 2 the output window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- Where it is 2 the output window is live. -/
theorem liveAt2_4 : ∀ t : Fin cfg2.N, cond2_1 (grid2.coords t) → cfg2.idle 4 (grid2.coords t) = false := by decide +kernel

/-! ## The zero offsets, however spelt -/

theorem off2_zero2 : (![0, 0] : Fin S128x512.rank → ℕ) = fun _ => 0 := by
  funext a; fin_cases a <;> rfl
theorem off2_zero3 : (![0, 0, 0] : Fin S1x4096x512.rank → ℕ) = fun _ => 0 := by
  funext a; fin_cases a <;> rfl

/-- The whole-buffer rectangle of a 128 × 512 buffer holds every index. -/
theorem cover2_w {Val : EltTy → Type} (w : (r2_w).shape.Idx → Val .f32) (y : S128x512.Idx) :
    ∃ p ∈ [(⟨r2_w, w⟩ : View.Piece Val S128x512 .f32)], y ∈ p.1.set :=
  ⟨_, List.mem_singleton_self _, View.mem_set_unit_zero off2_zero2 inb_S128x512_S128x512_0_0 y⟩

theorem cover2_w_cons {Val : EltTy → Type} (w : (r2_w).shape.Idx → Val .f32) (L : List (View.Piece Val S128x512 .f32)) (y : S128x512.Idx) :
    ∃ p ∈ ((⟨r2_w, w⟩ : View.Piece Val S128x512 .f32) :: L), y ∈ p.1.set :=
  ⟨_, List.mem_cons_self, View.mem_set_unit_zero off2_zero2 inb_S128x512_S128x512_0_0 y⟩

/-! ## The body's run, case by case

On whole staging memrefs holding the blocks `x0` … `x3` and a scratch accumulator, the body runs to the
continuation with the inputs as they were and the accumulator at the point's product added to zero (partition
index 0) or to what it held (`xs`); where the partition index is 2 the output buffer is left at the sum of the
accumulator, the frame sum and xv, clamped below at zero, and elsewhere it is handed back as found. -/

set_option maxHeartbeats 1000000 in
/-- Partition index 0: the accumulator is zeroed, then the product is added; the output buffer is untouched. -/
theorem run2_A (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : cond2_0 i) (hc1 : ¬cond2_1 i)
    (x0 : Vec F S3x128x4096 .f32) (x1 : Vec F S1x4096x512 .f32) (x2 x3 xi4 : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k2_pay2 (View.ld x0 (rz i)) x1 (k2_pay1 (F := F)))) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover2_w_cons _ _), View.canon_cons_unit_zero off2_zero2]
  simp only [View.readCov_unit_zero (S := S128x512) _ off2_zero2, View.readAt_eq_ld, harg2.read_unread, harg3.read_unread,
    View.ld_unit_zero (S := S128x512) off2_zero2, View.ld_unit_zero (S := S1x4096x512) off2_zero3]
  rfl

set_option maxHeartbeats 1000000 in
/-- Partition index 1: the product is added to the accumulator; the output buffer is untouched. -/
theorem run2_B (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : ¬cond2_0 i) (hc1 : ¬cond2_1 i)
    (x0 : Vec F S3x128x4096 .f32) (x1 : Vec F S1x4096x512 .f32) (x2 x3 xi4 xs : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k2_pay2 (View.ld x0 (rz i)) x1 xs)) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover2_w _), View.canon_unit_zero off2_zero2]
  simp only [View.readAt_eq_ld, harg2.read_unread, harg3.read_unread, harg7.read_unread,
    View.ld_unit_zero (S := S128x512) off2_zero2, View.ld_unit_zero (S := S1x4096x512) off2_zero3]
  rfl

set_option maxHeartbeats 1000000 in
/-- Partition index 2: the product is added to the accumulator, and the output buffer is stored. -/
theorem run2_C (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : ¬cond2_0 i) (hc1 : cond2_1 i)
    (x0 : Vec F S3x128x4096 .f32) (x1 : Vec F S1x4096x512 .f32) (x2 x3 xs : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay3 (k2_pay2 (View.ld x0 (rz i)) x1 xs) x2 x3)
            ∗ owns (c : Thread nD τ) arg7 fullShare (k2_pay2 (View.ld x0 (rz i)) x1 xs)) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover2_w _), View.canon_unit_zero off2_zero2]
    simp only [View.readCov_unit_zero (S := S128x512) _ off2_zero2, View.readAt_eq_ld, harg2.read_unread, harg3.read_unread,
      harg4.read_unread, harg5.read_unread, harg7.read_unread,
      View.ld_unit_zero (S := S128x512) off2_zero2, View.ld_unit_zero (S := S1x4096x512) off2_zero3]
    rfl
  iexists _; isplitr
  swap; · iexact HS
  ipureintro
  sl_unfold_words
  rw [View.read_writes_eq_canon _ _ _ (cover2_w _), View.canon_unit_zero off2_zero2]
  simp only [View.readAt_eq_ld, harg2.read_unread, harg3.read_unread, harg7.read_unread,
    View.ld_unit_zero (S := S128x512) off2_zero2, View.ld_unit_zero (S := S1x4096x512) off2_zero3]
  rfl

/-! ## The accumulator and the invariant, point by point -/

/-- At a point of partition index 0 the accumulator is the point's product added to zero. -/
theorem acc2_A (c : Dev nD) (t : Fin cfg2.N) (h0 : t.val % 3 = 0) :
    acc2 V c t.val t.isLt = k2_pay2 (zslab V c t) (iblk2 V c 1 t) (k2_pay1 (F := F)) := by
  obtain ⟨n, hn⟩ := t
  cases n with
  | zero => rfl
  | succ n => exact (if_pos h0)

/-- At any other point it is the point's product added to what the point before left. -/
theorem acc2_B (c : Dev nD) (t : Fin cfg2.N) (h0 : ¬t.val % 3 = 0) :
    acc2 V c t.val t.isLt = k2_pay2 (zslab V c t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem Phi2_zero (c : Dev nD) (n : ℕ) (h : n ≤ cfg2.N) (hz : n = 0) :
    Phi2 V c n h = iprop(rest2 (F := F) c ∗ (∃ d, owns (c : Thread nD τ) scM2 fullShare d) ∗ (∃ r, prngReg c r)) := by
  subst hz; rfl

theorem Phi2_succ (c : Dev nD) (n : ℕ) (hn : n < cfg2.N) :
    Phi2 V c (n + 1) hn = iprop(rest2 (F := F) c ∗ owns (c : Thread nD τ) scM2 fullShare (acc2 V c n hn) ∗ (∃ r, prngReg c r)) := rfl

theorem Phi2_pos (c : Dev nD) (n : ℕ) (h : n ≤ cfg2.N) (hz : n ≠ 0) :
    Phi2 V c n h = iprop(rest2 (F := F) c ∗ owns (c : Thread nD τ) scM2 fullShare (acc2 V c (n - 1) (by omega)) ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## The input windows hold their blocks at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- Each window's current staging memref at point `t`, and its wholeness. -/
abbrev ms2_0 (t : Fin cfg2.N) : Memref sig .tc .vmem S3x128x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x512 .f32 := win2_4.stage (cfg2.slots t 4)
abbrev hs2_4 (t : Fin cfg2.N) : (ms2_4 t).IsWhole := hstage2_4 ((cfg2.slots t 4).cast nbuf2_4)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's position mod 3 says which case it is
    in; the invariant hands the body the accumulator at what the point before left (at anything where the partition
    index is 0) and takes it back at this point's contents; where the partition index is not 2 the output window is
    idle and its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 24 := lt_of_lt_of_eq t.isLt (show cfg2.N = 24 from N_2)
  by_cases h0 : t.val % 3 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_A V c t h0]
    unfold zslab
    by_cases hz : t.val = 0
    · rw [Phi2_castSucc V c t, Phi2_zero V c _ _ hz]
      iintro ⟨⟨Hr, ⟨%ds, HS⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨Hr, HS, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hc0 : ¬cond2_0 (grid2.coords t) := fun h => h0 ((hcond2_0 t).mp h)
    have hz : t.val ≠ 0 := fun h => h0 (by rw [h])
    rw [acc2_B V c t h0]
    unfold zslab
    rw [Phi2_castSucc V c t, Phi2_pos V c _ _ hz]
    by_cases h1 : t.val % 3 = 2
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      unfold out2_4
      rw [acc2_B V c t h0]
      unfold zslab
      iintro ⟨⟨Hr, HS, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (by omega)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨Hr, HS, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ (acc2 V c (t.val - 1) (by omega)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-! ## The invariant's two ends -/

/-- The class's invariant of region 2 with the scratch accumulator named: the eight other scoped buffers at some
    contents, the accumulator owned at some contents, the generator register at some state. -/
theorem PhiA2_iff (c : Dev nD) :
    (Pipeline.ΦA spec2 c : sProp 𝕄)
      ⊣⊢ iprop(rest2 (F := F) c ∗ (∃ d, owns (c : Thread nD τ) scM2 fullShare d) ∗ (∃ r, prngReg c r)) := by
  unfold Pipeline.ΦA rest2
  rw [scopedRest2_eq]
  simp only [scM2, owns_whole]
  constructor
  · iintro ⟨⟨H1, H2, H3, H4, H5, H6, H7, H8, H9⟩, Hg⟩
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexact Hg
  · iintro ⟨⟨H1, H2, H3, H4, H5, H6, H7, H8⟩, H9, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg

/-- What the launch hands the region is the invariant before the first point. -/
theorem hin2 (c : Dev nD) : (Pipeline.ΦA spec2 c : sProp 𝕄) ⊢ (dat2 V c).Φ 0 := by
  rw [show (dat2 V c).Φ 0 = Phi2 V c 0 (Nat.zero_le _) from rfl]
  exact (PhiA2_iff c).1

/-- After the last point the invariant gives the class's back: the accumulator's contents are forgotten. -/
theorem hout2 (c : Dev nD) : (dat2 V c).Φ (Fin.last cfg2.N) ⊢ (Pipeline.ΦA spec2 c : sProp 𝕄) := by
  have hN : (Fin.last cfg2.N).val ≠ 0 := by rw [Fin.val_last]; have : cfg2.N = 24 := N_2; omega
  rw [show (dat2 V c).Φ (Fin.last cfg2.N) = Phi2 V c (Fin.last cfg2.N).val (Nat.le_of_lt_succ (Fin.last cfg2.N).isLt) from rfl,
    Phi2_pos V c _ _ hN]
  refine BIBase.Entails.trans ?_ (PhiA2_iff c).2
  iintro ⟨Hr, Ha, Hg⟩
  isplitl [Hr]; · iexact Hr
  isplitl [Ha]
  · iexists _; iexact Ha
  iexact Hg

end Cert.Kernel.Hand

end
-- ==== Proof.K.Fold.lean ====
/-
  The contents of a core's buffers at each boundary between @main's items, as a fold from the launch memory: a
  stretch of host operations applies them; a kernel region leaves each of its windows' arrays at what its
  write-backs leave (the inputs as entered) and every other buffer as entered.
-/
import proofs.«109399_j86242943304449_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two reshapes (xv and the bias column): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of Z into its three partitions: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is region 2's entry. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the closing broadcast to a leading unit axis: what @main returns. -/
abbrev W6 : Dev nD → Valuation τ sig (Elt F) := fun c => StableHlo.after hostOps3 (W5 m c)

end Cert.Kernel.Hand

end
-- ==== Proof.K.Run.lean ====
/-
  The run of @main: its six items as segments (three stretches of host operations, three kernel regions), launched
  from any memory with zero counters; every final memory holds each unscoped buffer at the fold's last contents.
-/
import proofs.«109399_j86242943304449_1_alg».proof.Proof.K.Body0
import proofs.«109399_j86242943304449_1_alg».proof.Proof.K.Body1
import proofs.«109399_j86242943304449_1_alg».proof.Proof.K.Body2
import proofs.«109399_j86242943304449_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## No item writes an argument: each reads back through the fold to its launch contents -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg1) := (W5_arr m c 1).trans (((dat2 (V4 m) c).arrAt_in 1 rfl _).trans (A_eq2 (V4 m) c 1))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg2) := W5_of_ne m c main_arg2 (by decide)
    _ = W3 m c (Proc.devRef .tc main_arg2) := (W4_arr m c 0).trans (((dat1 (V3 m) c).arrAt_in 0 rfl _).trans (A_eq1 (V3 m) c 0))
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 0).trans (((dat0 (V1 m) c).arrAt_in 0 rfl _).trans (A_eq0 (V1 m) c 0))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last contents `W6`, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays
    are split out of the unscoped buffers and put back at the exit contents; the generator register goes into the
    region's invariant and comes out of it; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m) c)
    unfold Pipeline.ΦA
    iintro ⟨Hp, -, Hr⟩
    isplitl [Hr]; · iexact Hr
    iexact Hp
  hout c := by
    rw [Pipeline.ownSems0_none]
    refine BIBase.Entails.trans (hout2 (V4 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]
/-- @main is the run of the segments. -/
theorem main_run (c : Dev nD) : main (F := F) c = Pipeline.Seg.run (segs m) := (main_chain c).trans (by chain_rfl)

set_option backward.isDefEq.respectTransparency.types false in
/-- Every weakly fair execution of @main terminates, nothing faulting, each unscoped buffer ending at `W6`. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c)
        ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- An unscoped TensorCore reference is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_main m ρ)

end Cert.Kernel.Hand

end
-- ==== Proof.KI.Defs.lean ====
/-
  The data of the three kernel regions, each at the contents `V` its region is entered from.

  Region 0 (one grid point) stores Z = W · xv + b, a 384×4096 array, from the whole arrays W (384×128),
  xv (128×4096) and b (384×1).  Region 1 (eight points, one per 512-column tile) stores, in tile n of a
  128×4096 array, the sum over the first 16 frames and the 3 partitions of the frame buffer's tile n.
  Region 2 (8 × 3 points: column tile n, partition p) keeps in a scratch accumulator the running sum over
  partitions of z[p] · A[p][:, tile n]; at p = 0 the accumulator restarts from zero, and at p = 2 the output
  tile is stored as max(accumulator + frame sum + xv, 0).

  What the body leaves in a buffer is stated through the kernels' payload functions applied to the blocks the
  region reads; the accumulator is a recursion on the grid point.
-/
import proofs.«109399_j86242943304449_1_alg».proof.Proof.Gen.KernelIdeal.Launch
import proofs.«109399_j86242943304449_1_alg».proof.Proof.Gen.KernelIdeal.Skeleton
import proofs.«109399_j86242943304449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: Z = W · xv + b -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S384x128 := Rect.unit (s := S384x128) ![0, 0] S384x128.size inb_S384x128_S384x128_0_0
abbrev r0_1 : Rect S128x4096 := Rect.unit (s := S128x4096) ![0, 0] S128x4096.size inb_S128x4096_S128x4096_0_0
abbrev r0_2 : Rect S384x1 := Rect.unit (s := S384x1) ![0, 0] S384x1.size inb_S384x1_S384x1_0_0
abbrev r0_3 : Rect S384x4096 := Rect.unit (s := S384x4096) ![0, 0] S384x4096.size inb_S384x4096_S384x4096_0_0

/-- What the body leaves in the output buffer: the product plus the broadcast bias, of the three input blocks. -/
def out0_3 (x0 : Vec F S384x128 .f32) (x1 : Vec F S128x4096 .f32) (x2 : Vec F S384x1 .f32) : Vec F S384x4096 .f32 :=
  k0_pay1 x0 x1 x2

/-- Region 0's proof data: the arrays as found; each input buffer at its block, the output buffer at `out0_3`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the frame buffer summed over its first 16 frames and its partitions, tile by tile -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The frame buffer's staging buffer at point `t`: the 16 × 3 × 128 × 512 block of tile `t` laid on the part a fetch
    moves (here all of the buffer: frames 0 to 15 of 17 lie inside the array), unnamed contents elsewhere. -/
def x1_0 (c : Dev nD) (t : Fin cfg1.N) : Vec F S16x3x128x512 .f32 :=
  (cfg1.win 0).fill (cfg1.grid.coords t) (fun _ => (Elt.inhabited F _).default) (iblk1 V c 0 t)

abbrev r1_0 : Rect S16x3x128x512 := Rect.unit (s := S16x3x128x512) ![0, 0, 0, 0] S16x3x128x512.size inb_S16x3x128x512_S16x3x128x512_0_0_0_0
abbrev r1_1 : Rect S128x512 := Rect.unit (s := S128x512) ![0, 0] S128x512.size inb_S128x512_S128x512_0_0

/-- What the body leaves in the output buffer: the block summed over frames, then over partitions. -/
def out1_1 (x0 : Vec F S16x3x128x512 .f32) : Vec F S128x512 .f32 := k1_pay1 x0

def dat1 (c : Dev nD) : Dat τ (Elt F) Unit ℕ (UR sig nD τ) ℕ cfg1 c where
  A w := V c (Pipeline.arrRef spec1 w)
  after w t := match w with
    | ⟨0, _⟩ => x1_0 V c t
    | ⟨1, _⟩ => out1_1 (x1_0 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = x1_0 V c t := by dsimp only [dat1]
theorem after1_1 (c : Dev nD) (t : Fin cfg1.N) : (dat1 V c).after 1 t = out1_1 (x1_0 V c t) := by dsimp only [dat1]

/-! ## Region 2: the partition sum of z[p] · A[p], the frame sum and xv added, clamped below at zero -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangle of z's resident buffer the body loads at coordinates `i`: partition `i 1`'s 128 × 4096 slab. -/
abbrev rz (i : grid2.Coords) : Rect S3x128x4096 := Rect.unit (s := S3x128x4096) (k2_off1 i) S1x128x4096.size (k2_off1_inb i)
abbrev r2_1 : Rect S1x4096x512 := Rect.unit (s := S1x4096x512) ![0, 0, 0] S1x4096x512.size inb_S1x4096x512_S1x4096x512_0_0_0
abbrev r2_w : Rect S128x512 := Rect.unit (s := S128x512) ![0, 0] S128x512.size inb_S128x512_S128x512_0_0

/-- z's slab of the point's partition, as the body loads it. -/
def zslab (c : Dev nD) (t : Fin cfg2.N) : Vec F S1x128x4096 .f32 := View.ld (iblk2 V c 0 t) (rz (grid2.coords t))

/-- The accumulator after the body at position `n`: the point's product z[p] · A[p][:, tile] added to zero where the
    partition index is 0 (the points ≡ 0 mod 3), and otherwise to what the point before left. -/
def acc2 (c : Dev nD) : (n : ℕ) → n < cfg2.N → Vec F S128x512 .f32
  | 0, hn => k2_pay2 (zslab V c ⟨0, hn⟩) (iblk2 V c 1 ⟨0, hn⟩) (k2_pay1 (F := F))
  | n + 1, hn =>
    if (n + 1) % 3 = 0 then k2_pay2 (zslab V c ⟨n + 1, hn⟩) (iblk2 V c 1 ⟨n + 1, hn⟩) (k2_pay1 (F := F))
    else k2_pay2 (zslab V c ⟨n + 1, hn⟩) (iblk2 V c 1 ⟨n + 1, hn⟩) (acc2 c n (Nat.lt_of_succ_lt hn))

/-- The output buffer after the body at point `t` (read only where the body stores it, the points ≡ 2 mod 3). -/
def out2_4 (c : Dev nD) (t : Fin cfg2.N) : Vec F S128x512 .f32 :=
  k2_pay3 (acc2 V c t.val t.isLt) (iblk2 V c 2 t) (iblk2 V c 3 t)

/-- The scratch accumulator, a whole scoped buffer. -/
abbrev scM2 : Memref sig .tc .vmem S128x512 .f32 := Memref.whole cc2_scratch0

/-- The core's scoped buffers that are neither a staging buffer of region 2 nor its scratch, each at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region invariant before position `n`: before the first point the accumulator holds anything; afterwards what
    the point before left (`acc2`); the other scoped buffers and the generator register at anything. -/
def Phi2 (c : Dev nD) : (n : ℕ) → n ≤ cfg2.N → sProp 𝕄
  | 0, _ => iprop(rest2 (F := F) c ∗ (∃ d, owns (c : Thread nD τ) scM2 fullShare d) ∗ (∃ r, prngReg c r))
  | n + 1, hn => iprop(rest2 (F := F) c ∗ owns (c : Thread nD τ) scM2 fullShare (acc2 V c n hn) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 V c t := by dsimp only [dat2]

end Cert.KernelIdeal.Hand

end
-- ==== Proof.KI.Body0.lean ====
/-
  Region 0's body obligation: at its one grid point the body, handed W, xv and the bias column in its input
  buffers, leaves Z = W · xv + b in its output buffer.
-/
import proofs.«109399_j86242943304449_1_alg».proof.Proof.KI.Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The zero offset of a rank-2 rectangle, as the constant function. -/
private theorem off2_zero : (![0, 0] : Fin 2 → Nat) = fun _ => 0 := by
  funext a; fin_cases a <;> rfl

/-- The one store through the whole output rectangle covers the output buffer. -/
private theorem cover0_3 (p0 : Vec F S384x4096 .f32) (y : S384x4096.Idx) :
    ∃ pc ∈ ([⟨r0_3, p0⟩] : List (View.Piece (Elt F) S384x4096 .f32)), y ∈ pc.1.set :=
  ⟨⟨r0_3, p0⟩, List.mem_singleton_self _, View.mem_set_unit_zero off2_zero inb_S384x4096_S384x4096_0_0 y⟩

set_option maxHeartbeats 1000000 in
/-- The body on whole staging memrefs, the three inputs' at read contents and the output's at anything, runs to the
    continuation holding the inputs' as they were and the output's at the product plus the broadcast bias of the inputs. -/
theorem sound_kernel0 (c : Dev nD) (E : Set ℕ) (i : grid0.Coords)
    (arg0 : Memref sig .tc .vmem S384x128 .f32) (harg0 : arg0.IsWhole)
    (arg1 : Memref sig .tc .vmem S128x4096 .f32) (harg1 : arg1.IsWhole)
    (arg2 : Memref sig .tc .vmem S384x1 .f32) (harg2 : arg2.IsWhole)
    (arg3 : Memref sig .tc .vmem S384x4096 .f32) (harg3 : arg3.IsWhole)
    (x0 : Vec F S384x128 .f32) (x1 : Vec F S128x4096 .f32) (x2 : Vec F S384x1 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (k0_pay1 x0 x1 x2)) -∗ K ⟨⟩))
      ⊢ wp frame (wpE (defs₀ (F := F)) Variants.none c none) E (cc0__conv_kernel i arg0 harg0 arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero off2_zero,
    View.readAt_eq_ld, View.readAt_eq_ld, View.readAt_eq_ld,
    View.ld_unit_zero off2_zero, View.ld_unit_zero off2_zero, View.ld_unit_zero off2_zero]

/-- Each input's current staging buffer holds its block at every point: the window is whole and never idle, so what a
    fetch brings, or what the body left when nothing is fetched, is the block read off the array. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body obligation: at each of its eight points the body, handed the frame buffer's tile, leaves the
  tile's sum over the sixteen frames and the three partitions in its output buffer.
-/
import proofs.«109399_j86242943304449_1_alg».proof.Proof.KI.Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The block at coordinates `i` ends inside the array on every axis: frames 0 to 15 of 17, all 3 partitions,
    all 128 rows, and columns 512·n to 512·n + 511 of 4096 for the tile n < 8. -/
private theorem clipOf1_0 (i : grid1.Coords) (a : Fin 4) :
    Pipeline.Clip.of (cc1_transform_0 i a) (S16x3x128x512.size a) (S17x3x128x4096.size a) = none := by
  have hi : (i 0).val < 8 := (i 0).isLt
  unfold Pipeline.Clip.of
  rw [if_pos]
  fin_cases a
  · show (0 + 1) * 16 ≤ 17; decide
  · show (0 + 1) * 3 ≤ 3; decide
  · show (0 + 1) * 128 ≤ 128; decide
  · show ((BitVec.ofNat 32 (i 0).val).toNat + 1) * 512 ≤ 4096
    rw [BitVec.toNat_ofNat]; omega

/-- No block of the frame buffer's window overhangs the array: frames 0 to 15 lie inside the 17, and the other axes tile. -/
theorem clip1_0 : ∀ (i : grid1.Coords) (a : Fin (cfg1.win 0).shape.rank), (cfg1.win 0).clip i a = none :=
  fun i a => clipOf1_0 i a

/-- The zero offsets of the rank-2 and rank-4 rectangles, as the constant function. -/
private theorem off2_zero : (![0, 0] : Fin 2 → Nat) = fun _ => 0 := by
  funext a; fin_cases a <;> rfl
private theorem off4_zero : (![0, 0, 0, 0] : Fin 4 → Nat) = fun _ => 0 := by
  funext a; fin_cases a <;> rfl

/-- The one store through the whole output rectangle covers the output buffer. -/
private theorem cover1_1 (p0 : Vec F S128x512 .f32) (y : S128x512.Idx) :
    ∃ pc ∈ ([⟨r1_1, p0⟩] : List (View.Piece (Elt F) S128x512 .f32)), y ∈ pc.1.set :=
  ⟨⟨r1_1, p0⟩, List.mem_singleton_self _, View.mem_set_unit_zero off2_zero inb_S128x512_S128x512_0_0 y⟩

set_option maxHeartbeats 1000000 in
/-- The body on whole staging memrefs, the input's at read contents and the output's at anything, runs to the
    continuation holding the input's as it was and the output's at the input summed over frames, then over partitions. -/
theorem sound_kernel1 (c : Dev nD) (E : Set ℕ) (i : grid1.Coords)
    (arg0 : Memref sig .tc .vmem S16x3x128x512 .f32) (harg0 : arg0.IsWhole)
    (arg1 : Memref sig .tc .vmem S128x512 .f32) (harg1 : arg1.IsWhole)
    (x0 : Vec F S16x3x128x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ K ⟨⟩))
      ⊢ wp frame (wpE (defs₀ (F := F)) Variants.none c none) E (cc1__fifo_sum_kernel i arg0 harg0 arg1 harg1) K := by
  simp only [cc1__fifo_sum_kernel_eq_skeleton]; unfold cc1__fifo_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover1_1 _), View.canon_unit_zero off2_zero,
    View.readAt_eq_ld, View.ld_unit_zero off4_zero]

/-- The frame buffer's current staging buffer holds, at every point, the tile's block laid on the part a fetch moves,
    which is all of the buffer: what a fetch brings, or what the body left when nothing is fetched, and nothing of the
    prior contents since no block overhangs. -/
theorem before1_0 (c : Dev nD) (t : Fin cfg1.N) (d) : (dat1 V c).before 0 t d = x1_0 V c t := by
  rw [(dat1 V c).before_in_eq_fetched 0 rfl (fun _ => rfl)
    (fun t t' _ => funext fun a => (clip1_0 _ a).trans (clip1_0 _ a).symm)
    (fun t => by rw [after1_0]; unfold x1_0; rw [Window.cut_fill]; unfold Dat.blockOf iblk1; rw [A_eq1]) t d]
  unfold Dat.fetched Dat.blockOf x1_0 iblk1
  rw [A_eq1]
  exact Pipeline.fill_of_clip_none (cfg := cfg1) 0 _ (clip1_0 _) _ _ _

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds the tile's block, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply (sound_kernel1 c Set.univ _ _ _ _ _ (x1_0 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2's body obligation, and its invariant's two ends: the accumulator is restarted where the partition index
  is 0, added to at every point, and read into the output where the partition index is 2.
-/
import proofs.«109399_j86242943304449_1_alg».proof.Proof.KI.Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's two conditions, in closed form over the grid -/

/-- The first conditional's condition (the partition index is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 3). -/
theorem hcond2_0 : ∀ t : Fin cfg2.N, cond2_0 (grid2.coords t) ↔ t.val % 3 = 0 :=
  (by decide +kernel : ∀ t : Fin grid2.N, cond2_0 (grid2.coords t) ↔ t.val % 3 = 0)

/-- The second conditional's condition (the partition index is 2). -/
abbrev cond2_1 (i : grid2.Coords) : Prop := k2_cond2 i = 1#1
/-- It holds at the points ≡ 2 (mod 3). -/
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the partition index is not 2 the output window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- Where it is 2 the output window is live. -/
theorem liveAt2_4 : ∀ t : Fin cfg2.N, cond2_1 (grid2.coords t) → cfg2.idle 4 (grid2.coords t) = false := by decide +kernel

/-! ## The zero offsets, however spelt -/

theorem off2_zero2 : (![0, 0] : Fin S128x512.rank → ℕ) = fun _ => 0 := by
  funext a; fin_cases a <;> rfl
theorem off2_zero3 : (![0, 0, 0] : Fin S1x4096x512.rank → ℕ) = fun _ => 0 := by
  funext a; fin_cases a <;> rfl

/-- The whole-buffer rectangle of a 128 × 512 buffer holds every index. -/
theorem cover2_w {Val : EltTy → Type} (w : (r2_w).shape.Idx → Val .f32) (y : S128x512.Idx) :
    ∃ p ∈ [(⟨r2_w, w⟩ : View.Piece Val S128x512 .f32)], y ∈ p.1.set :=
  ⟨_, List.mem_singleton_self _, View.mem_set_unit_zero off2_zero2 inb_S128x512_S128x512_0_0 y⟩

theorem cover2_w_cons {Val : EltTy → Type} (w : (r2_w).shape.Idx → Val .f32) (L : List (View.Piece Val S128x512 .f32)) (y : S128x512.Idx) :
    ∃ p ∈ ((⟨r2_w, w⟩ : View.Piece Val S128x512 .f32) :: L), y ∈ p.1.set :=
  ⟨_, List.mem_cons_self, View.mem_set_unit_zero off2_zero2 inb_S128x512_S128x512_0_0 y⟩

/-! ## The body's run, case by case

On whole staging memrefs holding the blocks `x0` … `x3` and a scratch accumulator, the body runs to the
continuation with the inputs as they were and the accumulator at the point's product added to zero (partition
index 0) or to what it held (`xs`); where the partition index is 2 the output buffer is left at the sum of the
accumulator, the frame sum and xv, clamped below at zero, and elsewhere it is handed back as found. -/

set_option maxHeartbeats 1000000 in
/-- Partition index 0: the accumulator is zeroed, then the product is added; the output buffer is untouched. -/
theorem run2_A (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : cond2_0 i) (hc1 : ¬cond2_1 i)
    (x0 : Vec F S3x128x4096 .f32) (x1 : Vec F S1x4096x512 .f32) (x2 x3 xi4 : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k2_pay2 (View.ld x0 (rz i)) x1 (k2_pay1 (F := F)))) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover2_w_cons _ _), View.canon_cons_unit_zero off2_zero2]
  simp only [View.readCov_unit_zero (S := S128x512) _ off2_zero2, View.readAt_eq_ld, harg2.read_unread, harg3.read_unread,
    View.ld_unit_zero (S := S128x512) off2_zero2, View.ld_unit_zero (S := S1x4096x512) off2_zero3]
  rfl

set_option maxHeartbeats 1000000 in
/-- Partition index 1: the product is added to the accumulator; the output buffer is untouched. -/
theorem run2_B (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : ¬cond2_0 i) (hc1 : ¬cond2_1 i)
    (x0 : Vec F S3x128x4096 .f32) (x1 : Vec F S1x4096x512 .f32) (x2 x3 xi4 xs : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k2_pay2 (View.ld x0 (rz i)) x1 xs)) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (cover2_w _), View.canon_unit_zero off2_zero2]
  simp only [View.readAt_eq_ld, harg2.read_unread, harg3.read_unread, harg7.read_unread,
    View.ld_unit_zero (S := S128x512) off2_zero2, View.ld_unit_zero (S := S1x4096x512) off2_zero3]
  rfl

set_option maxHeartbeats 1000000 in
/-- Partition index 2: the product is added to the accumulator, and the output buffer is stored. -/
theorem run2_C (c : Dev nD) (i : grid2.Coords)
    (arg2 : Memref sig .tc .vmem S3x128x4096 .f32) (harg2 : arg2.IsWhole)
    (arg3 : Memref sig .tc .vmem S1x4096x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole)
    (hc0 : ¬cond2_0 i) (hc1 : cond2_1 i)
    (x0 : Vec F S3x128x4096 .f32) (x1 : Vec F S1x4096x512 .f32) (x2 x3 xs : Vec F S128x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay3 (k2_pay2 (View.ld x0 (rz i)) x1 xs) x2 x3)
            ∗ owns (c : Thread nD τ) arg7 fullShare (k2_pay2 (View.ld x0 (rz i)) x1 xs)) -∗ K ⟨⟩))
      ⊢ wp frame (wpE (defs₀ (F := F)) Variants.none c none) E (cc2__main_kernel i arg2 harg2 arg3 harg3 arg4 harg4 arg5 harg5 arg6 harg6 arg7 harg7) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover2_w _), View.canon_unit_zero off2_zero2]
    simp only [View.readCov_unit_zero (S := S128x512) _ off2_zero2, View.readAt_eq_ld, harg2.read_unread, harg3.read_unread,
      harg4.read_unread, harg5.read_unread, harg7.read_unread,
      View.ld_unit_zero (S := S128x512) off2_zero2, View.ld_unit_zero (S := S1x4096x512) off2_zero3]
    rfl
  iexists _; isplitr
  swap; · iexact HS
  ipureintro
  sl_unfold_words
  rw [View.read_writes_eq_canon _ _ _ (cover2_w _), View.canon_unit_zero off2_zero2]
  simp only [View.readAt_eq_ld, harg2.read_unread, harg3.read_unread, harg7.read_unread,
    View.ld_unit_zero (S := S128x512) off2_zero2, View.ld_unit_zero (S := S1x4096x512) off2_zero3]
  rfl

/-! ## The accumulator and the invariant, point by point -/

/-- At a point of partition index 0 the accumulator is the point's product added to zero. -/
theorem acc2_A (c : Dev nD) (t : Fin cfg2.N) (h0 : t.val % 3 = 0) :
    acc2 V c t.val t.isLt = k2_pay2 (zslab V c t) (iblk2 V c 1 t) (k2_pay1 (F := F)) := by
  obtain ⟨n, hn⟩ := t
  cases n with
  | zero => rfl
  | succ n => exact (if_pos h0)

/-- At any other point it is the point's product added to what the point before left. -/
theorem acc2_B (c : Dev nD) (t : Fin cfg2.N) (h0 : ¬t.val % 3 = 0) :
    acc2 V c t.val t.isLt = k2_pay2 (zslab V c t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem Phi2_zero (c : Dev nD) (n : ℕ) (h : n ≤ cfg2.N) (hz : n = 0) :
    Phi2 V c n h = iprop(rest2 (F := F) c ∗ (∃ d, owns (c : Thread nD τ) scM2 fullShare d) ∗ (∃ r, prngReg c r)) := by
  subst hz; rfl

theorem Phi2_succ (c : Dev nD) (n : ℕ) (hn : n < cfg2.N) :
    Phi2 V c (n + 1) hn = iprop(rest2 (F := F) c ∗ owns (c : Thread nD τ) scM2 fullShare (acc2 V c n hn) ∗ (∃ r, prngReg c r)) := rfl

theorem Phi2_pos (c : Dev nD) (n : ℕ) (h : n ≤ cfg2.N) (hz : n ≠ 0) :
    Phi2 V c n h = iprop(rest2 (F := F) c ∗ owns (c : Thread nD τ) scM2 fullShare (acc2 V c (n - 1) (by omega)) ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-! ## The input windows hold their blocks at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- Each window's current staging memref at point `t`, and its wholeness. -/
abbrev ms2_0 (t : Fin cfg2.N) : Memref sig .tc .vmem S3x128x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x512 .f32 := win2_4.stage (cfg2.slots t 4)
abbrev hs2_4 (t : Fin cfg2.N) : (ms2_4 t).IsWhole := hstage2_4 ((cfg2.slots t 4).cast nbuf2_4)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's position mod 3 says which case it is
    in; the invariant hands the body the accumulator at what the point before left (at anything where the partition
    index is 0) and takes it back at this point's contents; where the partition index is not 2 the output window is
    idle and its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 24 := lt_of_lt_of_eq t.isLt (show cfg2.N = 24 from N_2)
  by_cases h0 : t.val % 3 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_A V c t h0]
    unfold zslab
    by_cases hz : t.val = 0
    · rw [Phi2_castSucc V c t, Phi2_zero V c _ _ hz]
      iintro ⟨⟨Hr, ⟨%ds, HS⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨Hr, HS, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hc0 : ¬cond2_0 (grid2.coords t) := fun h => h0 ((hcond2_0 t).mp h)
    have hz : t.val ≠ 0 := fun h => h0 (by rw [h])
    rw [acc2_B V c t h0]
    unfold zslab
    rw [Phi2_castSucc V c t, Phi2_pos V c _ _ hz]
    by_cases h1 : t.val % 3 = 2
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      unfold out2_4
      rw [acc2_B V c t h0]
      unfold zslab
      iintro ⟨⟨Hr, HS, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) (acc2 V c (t.val - 1) (by omega)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨Hr, HS, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ (acc2 V c (t.val - 1) (by omega)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-! ## The invariant's two ends -/

/-- The class's invariant of region 2 with the scratch accumulator named: the eight other scoped buffers at some
    contents, the accumulator owned at some contents, the generator register at some state. -/
theorem PhiA2_iff (c : Dev nD) :
    (Pipeline.ΦA spec2 c : sProp 𝕄)
      ⊣⊢ iprop(rest2 (F := F) c ∗ (∃ d, owns (c : Thread nD τ) scM2 fullShare d) ∗ (∃ r, prngReg c r)) := by
  unfold Pipeline.ΦA rest2
  rw [scopedRest2_eq]
  simp only [scM2, owns_whole]
  constructor
  · iintro ⟨⟨H1, H2, H3, H4, H5, H6, H7, H8, H9⟩, Hg⟩
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexact Hg
  · iintro ⟨⟨H1, H2, H3, H4, H5, H6, H7, H8⟩, H9, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg

/-- What the launch hands the region is the invariant before the first point. -/
theorem hin2 (c : Dev nD) : (Pipeline.ΦA spec2 c : sProp 𝕄) ⊢ (dat2 V c).Φ 0 := by
  rw [show (dat2 V c).Φ 0 = Phi2 V c 0 (Nat.zero_le _) from rfl]
  exact (PhiA2_iff c).1

/-- After the last point the invariant gives the class's back: the accumulator's contents are forgotten. -/
theorem hout2 (c : Dev nD) : (dat2 V c).Φ (Fin.last cfg2.N) ⊢ (Pipeline.ΦA spec2 c : sProp 𝕄) := by
  have hN : (Fin.last cfg2.N).val ≠ 0 := by rw [Fin.val_last]; have : cfg2.N = 24 := N_2; omega
  rw [show (dat2 V c).Φ (Fin.last cfg2.N) = Phi2 V c (Fin.last cfg2.N).val (Nat.le_of_lt_succ (Fin.last cfg2.N).isLt) from rfl,
    Phi2_pos V c _ _ hN]
  refine BIBase.Entails.trans ?_ (PhiA2_iff c).2
  iintro ⟨Hr, Ha, Hg⟩
  isplitl [Hr]; · iexact Hr
  isplitl [Ha]
  · iexists _; iexact Ha
  iexact Hg

end Cert.KernelIdeal.Hand

end
-- ==== Proof.KI.Fold.lean ====
/-
  The contents of a core's buffers at each boundary between @main's items, as a fold from the launch memory: a
  stretch of host operations applies them; a kernel region leaves each of its windows' arrays at what its
  write-backs leave (the inputs as entered) and every other buffer as entered.
-/
import proofs.«109399_j86242943304449_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two reshapes (xv and the bias column): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of Z into its three partitions: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is region 2's entry. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the closing broadcast to a leading unit axis: what @main returns. -/
abbrev W6 : Dev nD → Valuation τ sig (Elt F) := fun c => StableHlo.after hostOps3 (W5 m c)

end Cert.KernelIdeal.Hand

end
-- ==== Proof.KI.Run.lean ====
/-
  The run of @main: its six items as segments (three stretches of host operations, three kernel regions), launched
  from any memory with zero counters; every final memory holds each unscoped buffer at the fold's last contents.
-/
import proofs.«109399_j86242943304449_1_alg».proof.Proof.KI.Body0
import proofs.«109399_j86242943304449_1_alg».proof.Proof.KI.Body1
import proofs.«109399_j86242943304449_1_alg».proof.Proof.KI.Body2
import proofs.«109399_j86242943304449_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## No item writes an argument: each reads back through the fold to its launch contents -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg1) := (W5_arr m c 1).trans (((dat2 (V4 m) c).arrAt_in 1 rfl _).trans (A_eq2 (V4 m) c 1))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg2) := W5_of_ne m c main_arg2 (by decide)
    _ = W3 m c (Proc.devRef .tc main_arg2) := (W4_arr m c 0).trans (((dat1 (V3 m) c).arrAt_in 0 rfl _).trans (A_eq1 (V3 m) c 0))
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 0).trans (((dat0 (V1 m) c).arrAt_in 0 rfl _).trans (A_eq0 (V1 m) c 0))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last contents `W6`, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays
    are split out of the unscoped buffers and put back at the exit contents; the generator register goes into the
    region's invariant and comes out of it; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m) c)
    unfold Pipeline.ΦA
    iintro ⟨Hp, -, Hr⟩
    isplitl [Hr]; · iexact Hr
    iexact Hp
  hout c := by
    rw [Pipeline.ownSems0_none]
    refine BIBase.Entails.trans (hout2 (V4 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]
/-- @main is the run of the segments. -/
theorem main_run (c : Dev nD) : main (F := F) c = Pipeline.Seg.run (segs m) := (main_chain c).trans (by chain_rfl)

set_option backward.isDefEq.respectTransparency.types false in
/-- Every weakly fair execution of @main terminates, nothing faulting, each unscoped buffer ending at `W6`. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c)
        ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- An unscoped TensorCore reference is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_main m ρ)

end Cert.KernelIdeal.Hand

end
-- ==== Proof.Spec.lean ====
/-
  The result as ONE function of the five argument arrays, over the extended reals.

    xv[k, v]      = x[0, k, v, 0]
    Z[j, v]       = (Σ_k W[j, k] · xv[k, v]) + b[j]                      (j < 384)
    z[p, c, v]    = Z[128 p + c, v]                                      (p < 3, c < 128)
    S[c, w]       = Σ_p Σ_{t < 16} fifo[t, p, c, w]
    O[c, w]       = max (((Σ_p Σ_v z[p, c, v] · A[p, v, w]) + S[c, w]) + xv[c, w], 0)
    G[0, c, w]    = O[c, w]

  Each stage is stated over the arrays as the stage reads them, so that a stage can be matched on its own.
-/
import Idealize.ShloMosaic.PureOps.Ideal
import Idealize.ShloMosaic.Lib.ValueIdx

noncomputable section

namespace Cert.Spec

open Idealize.ShloMosaic Idealize.ShloMosaic.ValueIdx

abbrev T1x128x4096x1 : Shape := ⟨4, ![1, 128, 4096, 1]⟩
abbrev T3x4096x4096 : Shape := ⟨3, ![3, 4096, 4096]⟩
abbrev T17x3x128x4096 : Shape := ⟨4, ![17, 3, 128, 4096]⟩
abbrev T384x128 : Shape := ⟨2, ![384, 128]⟩
abbrev T384 : Shape := ⟨1, ![384]⟩
abbrev T128x4096 : Shape := ⟨2, ![128, 4096]⟩
abbrev T384x1 : Shape := ⟨2, ![384, 1]⟩
abbrev T384x4096 : Shape := ⟨2, ![384, 4096]⟩
abbrev T3x128x4096 : Shape := ⟨3, ![3, 128, 4096]⟩
abbrev T1x128x4096 : Shape := ⟨3, ![1, 128, 4096]⟩

/-- Row `128 p + c` of the 384 rows: partition `p`, channel `c`. -/
def row (p : Fin 3) (c : Fin 128) : Fin 384 := ⟨p.val * 128 + c.val, by have := p.isLt; have := c.isLt; omega⟩

/-- Frame `t` of the first sixteen, among the seventeen. -/
def frame (t : Fin 16) : Fin 17 := ⟨t.val, by have := t.isLt; omega⟩

/-- The product plus the bias column, over W (384 × 128), xv (128 × 4096) and the bias as a column (384 × 1). -/
def Zraw (W : T384x128.Idx → EReal) (xv : T128x4096.Idx → EReal) (b2 : T384x1.Idx → EReal) (j : Fin 384) (v : Fin 4096) : EReal :=
  (∑ k : Fin 128, W (ix2 j k) * xv (ix2 k v)) + b2 (ix2 j 0)

/-- The frame buffer summed over its first sixteen frames, then over its partitions. -/
def Sraw (fifo : T17x3x128x4096.Idx → EReal) (c : Fin 128) (w : Fin 4096) : EReal :=
  ∑ p : Fin 3, ∑ t : Fin 16, fifo (ix4 (frame t) p c w)

/-- One partition's product z[p] · A[p] at an entry. -/
def Draw (z : T3x128x4096.Idx → EReal) (A : T3x4096x4096.Idx → EReal) (p : Fin 3) (c : Fin 128) (w : Fin 4096) : EReal :=
  ∑ v : Fin 4096, z (ix3 p c v) * A (ix3 p v w)

/-- The partition sum of the products, the frame sum and xv added, clamped below at zero. -/
def Oraw (z : T3x128x4096.Idx → EReal) (A : T3x4096x4096.Idx → EReal) (s : T128x4096.Idx → EReal) (xv : T128x4096.Idx → EReal)
    (c : Fin 128) (w : Fin 4096) : EReal :=
  max (((∑ p : Fin 3, Draw z A p c w) + s (ix2 c w)) + xv (ix2 c w)) 0

/-- xv as an array: the argument with its two unit axes dropped. -/
def xvA (x : T1x128x4096x1.Idx → EReal) : T128x4096.Idx → EReal := fun i => x (ix4 0 (i 0) (i 1) 0)
/-- The bias as a column. -/
def b2A (b : T384.Idx → EReal) : T384x1.Idx → EReal := fun i => b (ix1 (i 0))
/-- Z as an array. -/
def ZA (x : T1x128x4096x1.Idx → EReal) (W : T384x128.Idx → EReal) (b : T384.Idx → EReal) : T384x4096.Idx → EReal :=
  fun i => Zraw W (xvA x) (b2A b) (i 0) (i 1)
/-- Z split into its three partitions. -/
def z3A (x : T1x128x4096x1.Idx → EReal) (W : T384x128.Idx → EReal) (b : T384.Idx → EReal) : T3x128x4096.Idx → EReal :=
  fun i => ZA x W b (ix2 (row (i 0) (i 1)) (i 2))
/-- The frame sum as an array. -/
def SA (fifo : T17x3x128x4096.Idx → EReal) : T128x4096.Idx → EReal := fun i => Sraw fifo (i 0) (i 1)
/-- The output before the leading unit axis is put back. -/
def OA (x : T1x128x4096x1.Idx → EReal) (A : T3x4096x4096.Idx → EReal) (fifo : T17x3x128x4096.Idx → EReal)
    (W : T384x128.Idx → EReal) (b : T384.Idx → EReal) : T128x4096.Idx → EReal :=
  fun i => Oraw (z3A x W b) A (SA fifo) (xvA x) (i 0) (i 1)

/-- THE RESULT, as a function of the five arguments (in @main's order: x, A, fifo, W, b). -/
def G (x : T1x128x4096x1.Idx → EReal) (A : T3x4096x4096.Idx → EReal) (fifo : T17x3x128x4096.Idx → EReal)
    (W : T384x128.Idx → EReal) (b : T384.Idx → EReal) : T1x128x4096.Idx → EReal :=
  fun i => OA x A fifo W b (ix2 (i 1) (i 2))

end Cert.Spec

end
-- ==== Proof.KI.Val0.lean ====
/-
  At Ideal, the array region 0 leaves is Z = W · xv + b of the arrays it reads, entry by entry.
-/
import proofs.«109399_j86242943304449_1_alg».proof.Proof.KI.Defs
import proofs.«109399_j86242943304449_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt Ideal) ((c : Thread nD τ).loc b))

/-! ## The product's operand indices, axis by axis -/

theorem lhs0_0 (i : S384x4096.Idx) (q : dot_S384x128_S128x4096_S384x4096_1_0_0_1_n_n.contr.Idx) :
    (dot_S384x128_S128x4096_S384x4096_1_0_0_1_n_n.lhsIdx i q 0).val = (i 0).val := by
  unfold DotDims.lhsIdx
  rw [dif_neg (show ¬(0 : Fin S384x128.rank) ∈ dot_S384x128_S128x4096_S384x4096_1_0_0_1_n_n.lhsBatch by decide), dif_pos (show (0 : Fin S384x128.rank) ∈ dot_S384x128_S128x4096_S384x4096_1_0_0_1_n_n.lhsNonContracting by decide)]
  rfl
theorem lhs0_1 (i : S384x4096.Idx) (q : dot_S384x128_S128x4096_S384x4096_1_0_0_1_n_n.contr.Idx) :
    (dot_S384x128_S128x4096_S384x4096_1_0_0_1_n_n.lhsIdx i q 1).val = (q ⟨0, by decide⟩).val :=
  dot_S384x128_S128x4096_S384x4096_1_0_0_1_n_n.lhsIdx_val_of_single rfl i q
theorem rhs0_0 (i : S384x4096.Idx) (q : dot_S384x128_S128x4096_S384x4096_1_0_0_1_n_n.contr.Idx) :
    (dot_S384x128_S128x4096_S384x4096_1_0_0_1_n_n.rhsIdx i q 0).val = (q ⟨0, by decide⟩).val :=
  dot_S384x128_S128x4096_S384x4096_1_0_0_1_n_n.rhsIdx_val_of_single rfl i q
theorem rhs0_1 (i : S384x4096.Idx) (q : dot_S384x128_S128x4096_S384x4096_1_0_0_1_n_n.contr.Idx) :
    (dot_S384x128_S128x4096_S384x4096_1_0_0_1_n_n.rhsIdx i q 1).val = (i 1).val := by
  unfold DotDims.rhsIdx
  rw [dif_neg (show ¬(1 : Fin S128x4096.rank) ∈ dot_S384x128_S128x4096_S384x4096_1_0_0_1_n_n.rhsBatch by decide), dif_pos (show (1 : Fin S128x4096.rank) ∈ dot_S384x128_S128x4096_S384x4096_1_0_0_1_n_n.rhsNonContracting by decide)]
  rfl

/-- The payload at an entry: the row of W against the column of xv, plus the bias of the row. -/
theorem k0_pay1_apply (x0 : Vec Ideal S384x128 .f32) (x1 : Vec Ideal S128x4096 .f32) (x2 : Vec Ideal S384x1 .f32) (j : S384x4096.Idx) :
    (k0_pay1 x0 x1 x2 j : EReal) = (∑ k : Fin 128, x0 (ValueIdx.ix2 (j 0) k) * x1 (ValueIdx.ix2 k (j 1))) + x2 (ValueIdx.ix2 (j 0) 0) := by
  unfold k0_pay1
  simp only [shapeCast_self]
  rw [ValueIdx.addf_apply]
  refine congrArg₂ (· + ·) ?_ ?_
  · simp only [matmul]
    rw [Ideal.matmul_constant_zero_apply, ← Equiv.sum_comp (ValueIdx.contrEquiv1 dot_S384x128_S128x4096_S384x4096_1_0_0_1_n_n 128 rfl rfl).symm]
    refine Finset.sum_congr rfl fun k _ => ?_
    have hk := ValueIdx.contrEquiv1_symm_val dot_S384x128_S128x4096_S384x4096_1_0_0_1_n_n 128 rfl rfl k
    rw [ValueIdx.truncf_apply, ValueIdx.truncf_apply]
    have el : dot_S384x128_S128x4096_S384x4096_1_0_0_1_n_n.lhsIdx j ((ValueIdx.contrEquiv1 dot_S384x128_S128x4096_S384x4096_1_0_0_1_n_n 128 rfl rfl).symm k) = ValueIdx.ix2 (j 0) k := funext fun a => Fin.ext (by
      match a with
      | ⟨0, _⟩ => exact lhs0_0 _ _
      | ⟨1, _⟩ => exact (lhs0_1 _ _).trans hk)
    have er : dot_S384x128_S128x4096_S384x4096_1_0_0_1_n_n.rhsIdx j ((ValueIdx.contrEquiv1 dot_S384x128_S128x4096_S384x4096_1_0_0_1_n_n 128 rfl rfl).symm k) = ValueIdx.ix2 k (j 1) := funext fun a => Fin.ext (by
      match a with
      | ⟨0, _⟩ => exact (rhs0_0 _ _).trans hk
      | ⟨1, _⟩ => exact rhs0_1 _ _)
    rw [el, er]
    rfl
  · exact broadcastTo_apply x2 broadcasts_S384x1_S384x4096 j (ValueIdx.ix2 (j 0) 0) (fun a => match a with
      | ⟨0, _⟩ => by show (j 0).val = if (384 : Nat) = 1 then 0 else (j 0).val; rw [if_neg (by decide)]
      | ⟨1, _⟩ => by show 0 = if (1 : Nat) = 1 then 0 else (j 1).val; rw [if_pos rfl])

/-! ## The blocks the one point reads are the whole arrays; what it writes back is the whole result -/

/-- Every window of region 0 sits at block index zero on both axes (decided at the one point). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem iblk0_0 (c : Dev nD) (t : Fin cfg0.N) : iblk0 V c 0 t = V c main_arg3 := by
  obtain ⟨e0, e1, -⟩ := idx_facts0 t
  funext y
  show V c main_arg3 (((cfg0.win 0).blk t).view.emb y) = V c main_arg3 y
  refine congrArg (V c main_arg3) (funext fun a => Fin.ext ?_)
  match a with
  | ⟨0, _⟩ => show win0_0.index t (0 : Fin 2) * 384 + 1 * (y 0).val = (y 0).val; omega
  | ⟨1, _⟩ => show win0_0.index t (1 : Fin 2) * 128 + 1 * (y 1).val = (y 1).val; omega

theorem iblk0_1 (c : Dev nD) (t : Fin cfg0.N) : iblk0 V c 1 t = V c main_v0 := by
  obtain ⟨-, -, e0, e1, -⟩ := idx_facts0 t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 4096 + 1 * (y 1).val = (y 1).val; omega

theorem iblk0_2 (c : Dev nD) (t : Fin cfg0.N) : iblk0 V c 2 t = V c main_v1 := by
  obtain ⟨-, -, -, -, e0, e1, -⟩ := idx_facts0 t
  funext y
  show V c main_v1 (((cfg0.win 2).blk t).view.emb y) = V c main_v1 y
  refine congrArg (V c main_v1) (funext fun a => Fin.ext ?_)
  match a with
  | ⟨0, _⟩ => show win0_2.index t (0 : Fin 2) * 384 + 1 * (y 0).val = (y 0).val; omega
  | ⟨1, _⟩ => show win0_2.index t (1 : Fin 2) * 1 + 1 * (y 1).val = (y 1).val; omega

/-- Z as an array over the three arrays region 0 reads. -/
abbrev G0 (W : S384x128.Idx → EReal) (xv : S128x4096.Idx → EReal) (b : S384x1.Idx → EReal) : S384x4096.Idx → EReal :=
  fun i => Cert.Spec.Zraw W xv b (i 0) (i 1)

/-- An entry of the output block sits at the same place in the array. -/
theorem emb0_3 (t : Fin cfg0.N) (y : ((cfg0.win 3).xblock (grid0.coords t)).Idx) :
    ((cfg0.win 3).blk t).view.emb y = (cfg0.win 3).xinj (grid0.coords t) y := by
  obtain ⟨-, -, -, -, -, -, e0, e1⟩ := idx_facts0 t
  funext a; apply Fin.ext
  match a with
  | ⟨0, _⟩ => show win0_3.index t (0 : Fin 2) * 384 + 1 * (y 0).val = (y 0).val; omega
  | ⟨1, _⟩ => show win0_3.index t (1 : Fin 2) * 4096 + 1 * (y 1).val = (y 1).val; omega

/-- What the point writes back is its block of Z. -/
theorem flushed0_3_eq (c : Dev nD) (t : Fin cfg0.N) :
    (dat0 (F := Ideal) V c).flushed 3 t
      = ((cfg0.win 3).blk t).view.read (Elt Ideal) (G0 (V c main_arg3) (V c main_v0) (V c main_v1)) := by
  show (cfg0.win 3).cut (grid0.coords t) ((dat0 (F := Ideal) V c).after 3 t) = _
  rw [after0_3, iblk0_0, iblk0_1, iblk0_2]
  unfold out0_3
  funext y
  show k0_pay1 (V c main_arg3) (V c main_v0) (V c main_v1) ((cfg0.win 3).xinj (grid0.coords t) y)
    = G0 (V c main_arg3) (V c main_v0) (V c main_v1) (((cfg0.win 3).blk t).view.emb y)
  rw [emb0_3, k0_pay1_apply]
  rfl

/-- An index of the array is in the point's block iff each coordinate is in the block's range on its axis. -/
theorem mem_blk0_3 (t : Fin cfg0.N) (i : S384x4096.Idx) :
    i ∈ ((cfg0.win 3).blk t).view.set ↔ ∀ a : Fin 2, win0_3.index t a * S384x4096.size a ≤ (i a).val ∧ (i a).val < win0_3.index t a * S384x4096.size a + S384x4096.size a := by
  show i ∈ ((View.whole main_v2).slice (win0_3.rect t)).set ↔ _
  rw [View.set_slice_whole, Rect.mem_set_unit]
  exact Iff.rfl

/-- The one block is the whole array. -/
theorem cover0_3 (i : S384x4096.Idx) : ∃ t : Fin cfg0.N, (cfg0.win 3).flush t = true ∧ i ∈ ((cfg0.win 3).blk t).view.set := by
  refine ⟨t0_0, flush0_3 t0_0, ?_⟩
  obtain ⟨-, -, -, -, -, -, e0, e1⟩ := idx_facts0 t0_0
  rw [mem_blk0_3]
  intro a
  match a with
  | ⟨0, _⟩ => show win0_3.index t0_0 (0 : Fin 2) * 384 ≤ (i 0).val ∧ (i 0).val < win0_3.index t0_0 (0 : Fin 2) * 384 + 384; have := (i 0).isLt; have h : (i 0).val < 384 := (i 0).isLt; omega
  | ⟨1, _⟩ => show win0_3.index t0_0 (1 : Fin 2) * 4096 ≤ (i 1).val ∧ (i 1).val < win0_3.index t0_0 (1 : Fin 2) * 4096 + 4096; have h : (i 1).val < 4096 := (i 1).isLt; omega

theorem arr0_eq (c : Dev nD) :
    ((dat0 (F := Ideal) V c).arrAt 3 cfg0.N : S384x4096.Idx → EReal)
      = fun i => Cert.Spec.Zraw (V c main_arg3) (V c main_v0) (V c main_v1) (i 0) (i 1) :=
  (dat0 (F := Ideal) V c).arrAt_eq_of_cover 3 (G0 (V c main_arg3) (V c main_v0) (V c main_v1))
    (fun t _ => flushed0_3_eq V c t) cover0_3

end Cert.KernelIdeal.Hand

end
-- ==== Proof.KI.Val1.lean ====
/-
  At Ideal, the array region 1 leaves is the frame buffer summed over its first sixteen frames and its partitions.
-/
import proofs.«109399_j86242943304449_1_alg».proof.Proof.KI.Defs
import proofs.«109399_j86242943304449_1_alg».proof.Proof.KI.Body1
import proofs.«109399_j86242943304449_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt Ideal) ((c : Thread nD τ).loc b))

open Idealize.ShloMosaic.ValueIdx

/-- The payload read at an index: the block summed over its sixteen frames, then over its three partitions. -/
private theorem pay1_apply (x : Vec Ideal S16x3x128x512 .f32) (j : S128x512.Idx) :
    k1_pay1 (F := Ideal) x j = ∑ p : Fin 3, ∑ f : Fin 16, x (ix4 f p (j 0) (j 1)) := by
  unfold k1_pay1
  refine (Ideal.multiReduction_add_single (φ := .f32) _ 0x00000000#32 reduces_S3x128x512_S128x512 (.inl rfl) rfl j).trans ?_
  refine Finset.sum_congr rfl fun p _ => ?_
  refine (Ideal.multiReduction_add_single (φ := .f32) x 0x00000000#32 reduces_S16x3x128x512_S3x128x512 (.inl rfl) rfl _).trans ?_
  refine Finset.sum_congr rfl fun f _ => ?_
  refine congrArg x (funext fun a => Fin.ext ?_)
  match a with
  | ⟨0, _⟩ => rfl
  | ⟨1, _⟩ => rfl
  | ⟨2, _⟩ => rfl
  | ⟨3, _⟩ => rfl

/-- The printed index maps over the grid's eight points: the frame buffer's block at point t is at block column t and
    block 0 on the other axes; the output's block is at block row 0 and block column t. -/
private theorem idx_facts1 : ∀ t : Fin cfg1.N, win1_0.index t (0 : Fin 4) = 0 ∧ win1_0.index t (1 : Fin 4) = 0
    ∧ win1_0.index t (2 : Fin 4) = 0 ∧ win1_0.index t (3 : Fin 4) = t.val
    ∧ win1_1.index t (0 : Fin 2) = 0 ∧ win1_1.index t (1 : Fin 2) = t.val :=
  (by decide +kernel : ∀ t : Fin grid1.N, _)

/-- The frame buffer's staging contents at point t, read at frame f, partition p, row r, column q of the block: the
    array at frame f, partition p, row r, column 512 t + q — every index of the block is in the part a fetch moves. -/
private theorem x1_0_apply (c : Dev nD) (t : Fin cfg1.N) (f : Fin 16) (p : Fin 3) (r : Fin 128) (q : Fin 512) (w : Fin 4096)
    (hw : w.val = t.val * 512 + q.val) :
    x1_0 (F := Ideal) V c t (ix4 f p r q) = (V c main_arg2 : S17x3x128x4096.Idx → EReal) (ix4 (Cert.Spec.frame f) p r w) := by
  unfold x1_0 Window.fill
  rw [dif_pos ((Window.moved_iff _ _ _).mpr fun a => by
    show _ < ((cfg1.win 0).clip _ a).extent _; rw [clip1_0]; exact (ix4 f p r q a).isLt)]
  unfold iblk1
  show (V c main_arg2 : S17x3x128x4096.Idx → EReal) (((cfg1.win 0).blk t).view.emb _) = _
  obtain ⟨e0, e1, e2, e3, -, -⟩ := idx_facts1 t
  refine congrArg _ (funext fun a => Fin.ext ?_)
  match a with
  | ⟨0, _⟩ => show win1_0.index t (0 : Fin 4) * 16 + 1 * f.val = f.val; omega
  | ⟨1, _⟩ => show win1_0.index t (1 : Fin 4) * 3 + 1 * p.val = p.val; omega
  | ⟨2, _⟩ => show win1_0.index t (2 : Fin 4) * 128 + 1 * r.val = r.val; omega
  | ⟨3, _⟩ => show win1_0.index t (3 : Fin 4) * 512 + 1 * q.val = w.val; omega

/-- What the body leaves at point t, read at row r and column q of the block: the frame sum at row r, column 512 t + q. -/
private theorem point1 (c : Dev nD) (t : Fin cfg1.N) (r : Fin 128) (q : Fin 512) (r' : Fin 128) (w : Fin 4096)
    (hr : r'.val = r.val) (hw : w.val = t.val * 512 + q.val) :
    k1_pay1 (F := Ideal) (x1_0 (F := Ideal) V c t) (ix2 r q) = Cert.Spec.Sraw (V c main_arg2) r' w := by
  obtain rfl : r' = r := Fin.ext hr
  refine (pay1_apply _ _).trans ?_
  unfold Cert.Spec.Sraw
  refine Finset.sum_congr rfl fun p _ => Finset.sum_congr rfl fun f _ => ?_
  exact x1_0_apply V c t f p _ q w hw

/-- The frame sum as one function of the array's index. -/
private abbrev G1 (A : S17x3x128x4096.Idx → EReal) : S128x4096.Idx → EReal := fun i => Cert.Spec.Sraw A (i 0) (i 1)

/-- What point t writes back is block t of the frame sum of the frame buffer as the region finds it. -/
private theorem flushed1_eq (c : Dev nD) (t : Fin cfg1.N) :
    (dat1 (F := Ideal) V c).flushed 1 t = ((cfg1.win 1).blk t).view.read (Elt Ideal) (G1 (V c main_arg2)) := by
  show (cfg1.win 1).cut (grid1.coords t) ((dat1 (F := Ideal) V c).after 1 t) = _
  rw [after1_1]
  unfold out1_1
  funext y
  show k1_pay1 (F := Ideal) (x1_0 (F := Ideal) V c t) ((cfg1.win 1).xinj (grid1.coords t) y)
    = Cert.Spec.Sraw (V c main_arg2) ((((cfg1.win 1).blk t).view.emb y) 0) ((((cfg1.win 1).blk t).view.emb y) 1)
  obtain ⟨-, -, -, -, e4, e5⟩ := idx_facts1 t
  refine (congrArg (k1_pay1 (F := Ideal) (x1_0 (F := Ideal) V c t)) (eq_ix2 _)).trans ?_
  refine point1 V c t _ _ _ _ ?_ ?_
  · show win1_1.index t (0 : Fin 2) * 128 + 1 * (y 0).val = (y 0).val; omega
  · show win1_1.index t (1 : Fin 2) * 512 + 1 * (y 1).val = t.val * 512 + (y 1).val; omega

/-- An index of the array is in point t's block iff each coordinate is in the block's range on its axis. -/
private theorem mem_blk1 (t : Fin cfg1.N) (i : S128x4096.Idx) :
    i ∈ ((cfg1.win 1).blk t).view.set ↔ ∀ a : Fin 2, win1_1.index t a * S128x512.size a ≤ (i a).val ∧ (i a).val < win1_1.index t a * S128x512.size a + S128x512.size a := by
  show i ∈ ((View.whole main_v4).slice (win1_1.rect t)).set ↔ _
  rw [View.set_slice_whole, Rect.mem_set_unit]
  exact Iff.rfl

/-- Every index of the array lies in the block of the point of its column tile, which writes back. -/
private theorem cover1 (i : S128x4096.Idx) :
    ∃ t : Fin cfg1.N, (cfg1.win 1).flush t = true ∧ i ∈ ((cfg1.win 1).blk t).view.set := by
  have hi0 : (i 0).val < 128 := (i 0).isLt
  have hi1 : (i 1).val < 4096 := (i 1).isLt
  have hN : (i 1).val / 512 < cfg1.N := by show _ < grid1.N; rw [N_1]; omega
  refine ⟨⟨(i 1).val / 512, hN⟩, flush1_1 _, ?_⟩
  obtain ⟨-, -, -, -, e4, e5⟩ := idx_facts1 ⟨(i 1).val / 512, hN⟩
  have e5' : win1_1.index ⟨(i 1).val / 512, hN⟩ (1 : Fin 2) = (i 1).val / 512 := e5
  rw [mem_blk1]
  intro a
  match a with
  | ⟨0, _⟩ => show win1_1.index ⟨(i 1).val / 512, hN⟩ (0 : Fin 2) * 128 ≤ (i 0).val ∧ (i 0).val < win1_1.index ⟨(i 1).val / 512, hN⟩ (0 : Fin 2) * 128 + 128; omega
  | ⟨1, _⟩ => show win1_1.index ⟨(i 1).val / 512, hN⟩ (1 : Fin 2) * 512 ≤ (i 1).val ∧ (i 1).val < win1_1.index ⟨(i 1).val / 512, hN⟩ (1 : Fin 2) * 512 + 512; omega

theorem arr1_eq (c : Dev nD) :
    ((dat1 (F := Ideal) V c).arrAt 1 cfg1.N : S128x4096.Idx → EReal)
      = fun i => Cert.Spec.Sraw (V c main_arg2) (i 0) (i 1) :=
  (dat1 (F := Ideal) V c).arrAt_eq_of_cover 1 (G1 (V c main_arg2)) (fun t _ => flushed1_eq V c t) cover1

end Cert.KernelIdeal.Hand

end
-- ==== Proof.KI.Val2.lean ====
/-
  At Ideal, the array region 2 leaves is the partition sum of z[p] · A[p], the frame sum and xv added, clamped below at zero.
-/
import proofs.«109399_j86242943304449_1_alg».proof.Proof.KI.Defs
import proofs.«109399_j86242943304449_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ
variable (V : (c : Dev nD) → (b : Ref sig .tc) → Buf (Elt Ideal) ((c : Thread nD τ).loc b))

namespace R2

/-! ## The payloads at an index -/

/-- The reset value is zero everywhere. -/
theorem pay1_apply (j : S128x512.Idx) : k2_pay1 (F := Ideal) j = 0 := by
  unfold k2_pay1
  rw [shapeCast_self]
  exact Ideal.ofBits_zero_f32

theorem lhs_za_0 (i : S128x512.Idx) (q : dot_S128x4096_S4096x512_S128x512_1_0_0_1_n_n.contr.Idx) :
    (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem lhs_za_1 (i : S128x512.Idx) (q : dot_S128x4096_S4096x512_S128x512_1_0_0_1_n_n.contr.Idx) :
    (dot_S128x4096_S4096x512_S128x512_1_0_0_1_n_n.lhsIdx i q 1).val = (q ⟨0, by decide⟩).val :=
  dot_S128x4096_S4096x512_S128x512_1_0_0_1_n_n.lhsIdx_val_of_single rfl i q
theorem rhs_za_0 (i : S128x512.Idx) (q : dot_S128x4096_S4096x512_S128x512_1_0_0_1_n_n.contr.Idx) :
    (dot_S128x4096_S4096x512_S128x512_1_0_0_1_n_n.rhsIdx i q 0).val = (q ⟨0, by decide⟩).val :=
  dot_S128x4096_S4096x512_S128x512_1_0_0_1_n_n.rhsIdx_val_of_single rfl i q
theorem rhs_za_1 (i : S128x512.Idx) (q : dot_S128x4096_S4096x512_S128x512_1_0_0_1_n_n.contr.Idx) :
    (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl

/-- The product of a 128 × 4096 by a 4096 × 512 matrix into zero, at an entry: the sum over the contracted axis. -/
theorem matmul_za_apply (x : FVec Ideal S128x4096 .bf16) (y : FVec Ideal S4096x512 .bf16) (r : Fin 128) (q : Fin 512) :
    matmul dot_S128x4096_S4096x512_S128x512_1_0_0_1_n_n none x y (constant S128x512 .f32 0x00000000#32) (ix2 r q)
      = ∑ v : Fin 4096, x (ix2 r v) * y (ix2 v q) := by
  show FloatOps.matmul _ _ _ _ _ _ = _
  rw [Ideal.matmul_constant_zero_apply, ← Equiv.sum_comp (ValueIdx.contrEquiv1 dot_S128x4096_S4096x512_S128x512_1_0_0_1_n_n 4096 rfl rfl).symm]
  refine Finset.sum_congr rfl fun k _ => ?_
  have hk := ValueIdx.contrEquiv1_symm_val dot_S128x4096_S4096x512_S128x512_1_0_0_1_n_n 4096 rfl rfl k
  have el : dot_S128x4096_S4096x512_S128x512_1_0_0_1_n_n.lhsIdx (ix2 r q) ((ValueIdx.contrEquiv1 dot_S128x4096_S4096x512_S128x512_1_0_0_1_n_n 4096 rfl rfl).symm k) = ix2 r k := funext fun a => Fin.ext (by
    match a with
    | ⟨0, _⟩ => exact lhs_za_0 _ _
    | ⟨1, _⟩ => exact (lhs_za_1 _ _).trans hk)
  have er : dot_S128x4096_S4096x512_S128x512_1_0_0_1_n_n.rhsIdx (ix2 r q) ((ValueIdx.contrEquiv1 dot_S128x4096_S4096x512_S128x512_1_0_0_1_n_n 4096 rfl rfl).symm k) = ix2 k q := funext fun a => Fin.ext (by
    match a with
    | ⟨0, _⟩ => exact (rhs_za_0 _ _).trans hk
    | ⟨1, _⟩ => exact rhs_za_1 _ _)
  rw [el, er]

/-- The accumulating step at an entry: what was there plus the slab's row times the block's column. -/
theorem pay2_apply (z : Vec Ideal S1x128x4096 .f32) (a : Vec Ideal S1x4096x512 .f32) (s : Vec Ideal S128x512 .f32)
    (r : Fin 128) (q : Fin 512) :
    k2_pay2 z a s (ix2 r q) = s (ix2 r q) + ∑ v : Fin 4096, z (ix3 (0 : Fin 1) r v) * a (ix3 (0 : Fin 1) v q) := by
  unfold k2_pay2
  rw [shapeCast_self, addf_apply, matmul_za_apply]
  refine congrArg (s (ix2 r q) + ·) (Finset.sum_congr rfl fun v _ => ?_)
  rw [truncf_apply, truncf_apply, shapeCast_1ab_ab_apply, shapeCast_1ab_ab_apply]

/-- The epilogue at an entry. -/
theorem pay3_apply (acc f x : Vec Ideal S128x512 .f32) (j : S128x512.Idx) :
    k2_pay3 acc f x j = max ((acc j + f j) + x j) 0 := by
  unfold k2_pay3
  rw [shapeCast_self, shapeCast_self, maximumf_apply, addf_apply, addf_apply, broadcast_apply]
  exact congrArg (max _) Ideal.ofBits_zero_f32

/-! ## The index maps over the grid: point t is column tile t / 3, partition t % 3 -/

theorem idx_facts : ∀ t : Fin cfg2.N,
    win2_0.index t (0 : Fin 3) = 0 ∧ win2_0.index t (1 : Fin 3) = 0 ∧ win2_0.index t (2 : Fin 3) = 0
    ∧ win2_1.index t (0 : Fin 3) = t.val % 3 ∧ win2_1.index t (1 : Fin 3) = 0 ∧ win2_1.index t (2 : Fin 3) = t.val / 3
    ∧ win2_2.index t (0 : Fin 2) = 0 ∧ win2_2.index t (1 : Fin 2) = t.val / 3
    ∧ win2_3.index t (0 : Fin 2) = 0 ∧ win2_3.index t (1 : Fin 2) = t.val / 3
    ∧ win2_4.index t (0 : Fin 2) = 0 ∧ win2_4.index t (1 : Fin 2) = t.val / 3
    ∧ k2_off1 (grid2.coords t) (0 : Fin 3) = t.val % 3 ∧ k2_off1 (grid2.coords t) (1 : Fin 3) = 0
    ∧ k2_off1 (grid2.coords t) (2 : Fin 3) = 0 :=
  (by decide +kernel : ∀ t : Fin grid2.N, _)

/-! ## The blocks the body reads, at coordinates -/

/-- z's slab at point t is partition t % 3 of z. -/
theorem zslab_apply (c : Dev nD) (t : Fin cfg2.N) (r : Fin 128) (v : Fin 4096) (p : Fin 3) (hp : p.val = t.val % 3) :
    zslab V c t (ix3 (0 : Fin 1) r v) = V c main_v3 (ix3 p r v) := by
  obtain ⟨a0, a1, a2, -, -, -, -, -, -, -, -, -, k0, k1, k2⟩ := idx_facts t
  show V c main_v3 (((cfg2.win 0).blk t).view.emb ((rz (grid2.coords t)).idx (ix3 (0 : Fin 1) r v))) = _
  refine congrArg (V c main_v3) (funext fun a => Fin.ext ?_)
  match a with
  | ⟨0, _⟩ => show win2_0.index t (0 : Fin 3) * 3 + 1 * (k2_off1 (grid2.coords t) (0 : Fin 3) + 1 * 0) = p.val; omega
  | ⟨1, _⟩ => show win2_0.index t (1 : Fin 3) * 128 + 1 * (k2_off1 (grid2.coords t) (1 : Fin 3) + 1 * r.val) = r.val; omega
  | ⟨2, _⟩ => show win2_0.index t (2 : Fin 3) * 4096 + 1 * (k2_off1 (grid2.coords t) (2 : Fin 3) + 1 * v.val) = v.val; omega

/-- A's block at point t is partition t % 3, column tile t / 3. -/
theorem ablk_apply (c : Dev nD) (t : Fin cfg2.N) (v : Fin 4096) (q : Fin 512) (p : Fin 3) (w : Fin 4096)
    (hp : p.val = t.val % 3) (hw : w.val = t.val / 3 * 512 + q.val) :
    iblk2 V c 1 t (ix3 (0 : Fin 1) v q) = V c main_arg1 (ix3 p v w) := by
  obtain ⟨-, -, -, e0, e1, e2, -⟩ := idx_facts t
  show V c main_arg1 (((cfg2.win 1).blk t).view.emb (ix3 (0 : Fin 1) v q)) = _
  refine congrArg (V c main_arg1) (funext fun a => Fin.ext ?_)
  match a with
  | ⟨0, _⟩ => show win2_1.index t (0 : Fin 3) * 1 + 1 * 0 = p.val; omega
  | ⟨1, _⟩ => show win2_1.index t (1 : Fin 3) * 4096 + 1 * v.val = v.val; omega
  | ⟨2, _⟩ => show win2_1.index t (2 : Fin 3) * 512 + 1 * q.val = w.val; omega

/-- The frame sum's block at point t is column tile t / 3. -/
theorem sblk_apply (c : Dev nD) (t : Fin cfg2.N) (r : Fin 128) (q : Fin 512) (w : Fin 4096)
    (hw : w.val = t.val / 3 * 512 + q.val) :
    iblk2 V c 2 t (ix2 r q) = V c main_v4 (ix2 r w) := by
  obtain ⟨-, -, -, -, -, -, e0, e1, -⟩ := idx_facts t
  show V c main_v4 (((cfg2.win 2).blk t).view.emb (ix2 r q)) = _
  refine congrArg (V c main_v4) (funext fun a => Fin.ext ?_)
  match a with
  | ⟨0, _⟩ => show win2_2.index t (0 : Fin 2) * 128 + 1 * r.val = r.val; omega
  | ⟨1, _⟩ => show win2_2.index t (1 : Fin 2) * 512 + 1 * q.val = w.val; omega

/-- xv's block at point t is column tile t / 3. -/
theorem xblk_apply (c : Dev nD) (t : Fin cfg2.N) (r : Fin 128) (q : Fin 512) (w : Fin 4096)
    (hw : w.val = t.val / 3 * 512 + q.val) :
    iblk2 V c 3 t (ix2 r q) = V c main_v0 (ix2 r w) := by
  obtain ⟨-, -, -, -, -, -, -, -, e0, e1, -⟩ := idx_facts t
  show V c main_v0 (((cfg2.win 3).blk t).view.emb (ix2 r q)) = _
  refine congrArg (V c main_v0) (funext fun a => Fin.ext ?_)
  match a with
  | ⟨0, _⟩ => show win2_3.index t (0 : Fin 2) * 128 + 1 * r.val = r.val; omega
  | ⟨1, _⟩ => show win2_3.index t (1 : Fin 2) * 512 + 1 * q.val = w.val; omega

/-! ## The accumulator over a run of three points -/

theorem acc2_reset (c : Dev nD) (n : ℕ) (h : n < cfg2.N) (hn : n % 3 = 0) :
    acc2 V c n h = k2_pay2 (zslab V c ⟨n, h⟩) (iblk2 V c 1 ⟨n, h⟩) (k2_pay1 (F := Ideal)) := by
  cases n with
  | zero => rw [acc2]
  | succ m => rw [acc2, if_pos hn]

theorem acc2_step (c : Dev nD) (n : ℕ) (h : n + 1 < cfg2.N) (hn : ¬(n + 1) % 3 = 0) :
    acc2 V c (n + 1) h = k2_pay2 (zslab V c ⟨n + 1, h⟩) (iblk2 V c 1 ⟨n + 1, h⟩) (acc2 V c n (Nat.lt_of_succ_lt h)) := by
  rw [acc2, if_neg hn]

/-- One point's product at an entry is that partition's product of the specification. -/
theorem prod_apply (c : Dev nD) (u : Fin cfg2.N) (r : Fin 128) (q : Fin 512) (p : Fin 3) (w : Fin 4096)
    (hp : p.val = u.val % 3) (hw : w.val = u.val / 3 * 512 + q.val) :
    ∑ v : Fin 4096, zslab V c u (ix3 (0 : Fin 1) r v) * iblk2 V c 1 u (ix3 (0 : Fin 1) v q)
      = Cert.Spec.Draw (V c main_v3) (V c main_arg1) p r w := by
  unfold Cert.Spec.Draw
  refine Finset.sum_congr rfl fun v _ => ?_
  rw [zslab_apply V c u r v p hp, ablk_apply V c u v q p w hp hw]

/-- At the last point of a run the accumulator holds the sum of the three partitions' products. -/
theorem acc2_apply (c : Dev nD) (t : Fin cfg2.N) (ht : t.val % 3 = 2) (r : Fin 128) (q : Fin 512) (w : Fin 4096)
    (hw : w.val = t.val / 3 * 512 + q.val) :
    acc2 V c t.val t.isLt (ix2 r q) = ∑ p : Fin 3, Cert.Spec.Draw (V c main_v3) (V c main_arg1) p r w := by
  have hN : cfg2.N = 24 := N_2
  obtain ⟨t, htl⟩ := t
  obtain ⟨n, rfl⟩ : ∃ n, t = n + 2 := ⟨t - 2, by dsimp only at ht; omega⟩
  dsimp only at ht hw ⊢
  have h1 : n + 1 < cfg2.N := by omega
  have h0 : n < cfg2.N := by omega
  rw [acc2_step V c (n + 1) htl (by omega)]
  refine (pay2_apply _ _ _ r q).trans ?_
  rw [acc2_step V c n h1 (by omega)]
  rw [pay2_apply (zslab V c ⟨n + 1, h1⟩) (iblk2 V c 1 ⟨n + 1, h1⟩) _ r q]
  rw [acc2_reset V c n h0 (by omega)]
  rw [pay2_apply (zslab V c ⟨n, h0⟩) (iblk2 V c 1 ⟨n, h0⟩) _ r q, pay1_apply, zero_add]
  rw [prod_apply V c ⟨n, h0⟩ r q 0 w (by show 0 = n % 3; omega) (by show w.val = n / 3 * 512 + q.val; omega),
    prod_apply V c ⟨n + 1, h1⟩ r q 1 w (by show 1 = (n + 1) % 3; omega) (by show w.val = (n + 1) / 3 * 512 + q.val; omega),
    prod_apply V c ⟨n + 2, htl⟩ r q 2 w (by show 2 = (n + 2) % 3; omega) (by show w.val = (n + 2) / 3 * 512 + q.val; omega)]
  rw [Fin.sum_univ_three]

/-- The stored block at an entry, at the last point of a run. -/
theorem out_apply (c : Dev nD) (t : Fin cfg2.N) (ht : t.val % 3 = 2) (r : Fin 128) (q : Fin 512) (w : Fin 4096)
    (hw : w.val = t.val / 3 * 512 + q.val) :
    out2_4 V c t (ix2 r q) = Cert.Spec.Oraw (V c main_v3) (V c main_arg1) (V c main_v4) (V c main_v0) r w := by
  unfold out2_4
  refine (pay3_apply _ _ _ (ix2 r q)).trans ?_
  rw [acc2_apply V c t ht r q w hw, sblk_apply V c t r q w hw, xblk_apply V c t r q w hw]
  rfl

/-! ## From the blocks to the array -/

/-- The array region 2 is to leave: the specification's output stage of the arrays the region reads. -/
abbrev Gout (c : Dev nD) : S128x4096.Idx → EReal :=
  fun i => Cert.Spec.Oraw (V c main_v3) (V c main_arg1) (V c main_v4) (V c main_v0) (i 0) (i 1)

/-- What a point that writes back writes is its block of that array. -/
theorem flushed_eq (c : Dev nD) (t : Fin cfg2.N) (hf : (cfg2.win 4).flush t = true) :
    (dat2 (F := Ideal) V c).flushed 4 t = ((cfg2.win 4).blk t).view.read (Elt Ideal) (Gout V c) := by
  have ht : t.val % 3 = 2 := (flush2_4 t).mp hf
  have hN : cfg2.N = 24 := N_2
  have htl : t.val < cfg2.N := t.isLt
  obtain ⟨-, -, -, -, -, -, -, -, -, -, e0, e1, -⟩ := idx_facts t
  show (cfg2.win 4).cut (grid2.coords t) ((dat2 V c).after 4 t) = _
  rw [after2_4]
  funext j
  have hj0 : (j 0).val < 128 := (j 0).isLt
  have hj1 : (j 1).val < 512 := (j 1).isLt
  have hx : (cfg2.win 4).xinj (grid2.coords t) j = ix2 (⟨(j 0).val, hj0⟩ : Fin 128) (⟨(j 1).val, hj1⟩ : Fin 512) :=
    funext fun a => by match a with | ⟨0, _⟩ => rfl | ⟨1, _⟩ => rfl
  show out2_4 V c t ((cfg2.win 4).xinj (grid2.coords t) j) = Gout V c (((cfg2.win 4).blk t).view.emb j)
  refine (congrArg (out2_4 V c t) hx).trans ?_
  refine (out_apply V c t ht ⟨(j 0).val, hj0⟩ ⟨(j 1).val, hj1⟩ ⟨t.val / 3 * 512 + (j 1).val, by omega⟩ rfl).trans ?_
  have h0 : (⟨(j 0).val, hj0⟩ : Fin 128) = (((cfg2.win 4).blk t).view.emb j) 0 :=
    Fin.ext (by show (j 0).val = win2_4.index t (0 : Fin 2) * 128 + 1 * (j 0).val; omega)
  have h1 : (⟨t.val / 3 * 512 + (j 1).val, by omega⟩ : Fin 4096) = (((cfg2.win 4).blk t).view.emb j) 1 :=
    Fin.ext (by show t.val / 3 * 512 + (j 1).val = win2_4.index t (1 : Fin 2) * 512 + 1 * (j 1).val; omega)
  exact congrArg₂ (Cert.Spec.Oraw (V c main_v3) (V c main_arg1) (V c main_v4) (V c main_v0)) h0 h1

/-- An entry of the array is in point t's block iff each coordinate is in the block's range on its axis. -/
theorem mem_blk (t : Fin cfg2.N) (i : S128x4096.Idx) :
    i ∈ ((cfg2.win 4).blk t).view.set ↔ ∀ a : Fin 2, win2_4.index t a * S128x512.size a ≤ (i a).val ∧ (i a).val < win2_4.index t a * S128x512.size a + S128x512.size a := by
  show i ∈ ((View.whole main_v5).slice (win2_4.rect t)).set ↔ _
  rw [View.set_slice_whole, Rect.mem_set_unit]
  exact Iff.rfl

/-- Column w lies in the block of the last point of column tile w / 512's run. -/
theorem cover (i : S128x4096.Idx) :
    ∃ t : Fin cfg2.N, (cfg2.win 4).flush t = true ∧ i ∈ ((cfg2.win 4).blk t).view.set := by
  have hN : cfg2.N = 24 := N_2
  have hi0 : (i 0).val < 128 := (i 0).isLt
  have hi1 : (i 1).val < 4096 := (i 1).isLt
  obtain ⟨t, ht⟩ : ∃ t : Fin cfg2.N, t.val = 3 * ((i 1).val / 512) + 2 := ⟨⟨3 * ((i 1).val / 512) + 2, by omega⟩, rfl⟩
  obtain ⟨-, -, -, -, -, -, -, -, -, -, e0, e1, -⟩ := idx_facts t
  refine ⟨t, (flush2_4 t).mpr (by omega), ?_⟩
  rw [mem_blk]
  intro a
  match a with
  | ⟨0, _⟩ =>
    show win2_4.index t (0 : Fin 2) * 128 ≤ (i 0).val ∧ (i 0).val < win2_4.index t (0 : Fin 2) * 128 + 128
    omega
  | ⟨1, _⟩ =>
    show win2_4.index t (1 : Fin 2) * 512 ≤ (i 1).val ∧ (i 1).val < win2_4.index t (1 : Fin 2) * 512 + 512
    omega

end R2

theorem arr2_eq (c : Dev nD) :
    ((dat2 (F := Ideal) V c).arrAt 4 cfg2.N : S128x4096.Idx → EReal)
      = fun i => Cert.Spec.Oraw (V c main_v3) (V c main_arg1) (V c main_v4) (V c main_v0) (i 0) (i 1) :=
  (dat2 (F := Ideal) V c).arrAt_eq_of_cover 4 (R2.Gout V c) (fun t hf => R2.flushed_eq V c t hf) R2.cover

end Cert.KernelIdeal.Hand

end
-- ==== Proof.KI.KVal.lean ====
/-
  At Ideal, what @main returns is the specification's function of the five argument arrays.

  The buffers' contents are followed from the launch memory through @main's items: the two reshapes give xv and
  the bias column; region 0 leaves Z = W · xv + b; the reshape of Z gives its three partitions z; region 1 leaves
  the frame sum S; region 2 leaves max((Σ_p z[p] · A[p]) + S + xv, 0); the closing broadcast puts the leading unit
  axis back.  A reshape read at an index is its operand at the index of the same row-major position; a region
  leaves its input windows' arrays and every buffer that is no array of its windows as entered.
-/
import proofs.«109399_j86242943304449_1_alg».proof.Proof.KI.Fold
import proofs.«109399_j86242943304449_1_alg».proof.Proof.KI.Val0
import proofs.«109399_j86242943304449_1_alg».proof.Proof.KI.Val1
import proofs.«109399_j86242943304449_1_alg».proof.Proof.KI.Val2
import proofs.«109399_j86242943304449_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable {F : FTy → Type} [FloatOps F]

local notation "𝕄" => MT nD τ sig Unit (Elt F) ℕ (UR sig nD τ) ℕ

section Steps

variable (m : (ℓ : Loc nD τ sig) → Buf (Elt Ideal) ℓ) (c : Dev nD)

/-- At region 0's entry, xv is the first argument read with its two unit axes dropped. -/
private theorem W1_v0 :
    (W1 (F := Ideal) m c (Proc.devRef .tc main_v0) : S128x4096.Idx → EReal)
      = Cert.Spec.xvA (m ((c : Thread nD τ).loc main_arg0)) := by
  have e : (W1 (F := Ideal) m c (Proc.devRef .tc main_v0) : S128x4096.Idx → EReal)
      = shapeCast S128x4096 (m ((c : Thread nD τ).loc main_arg0) : S1x128x4096x1.Idx → EReal) shapeCasts_S1x128x4096x1_S128x4096 := by
    show StableHlo.after hostOps0 (W0 m c) (Proc.devRef .tc main_v0) = _
    after_results
    rfl
  rw [e]
  funext i
  unfold Cert.Spec.xvA
  exact shapeCast_apply _ shapeCasts_S1x128x4096x1_S128x4096 i (ix4 0 (i 0) (i 1) 0)
    (by rewrite [Shape.rowMajor_val_four, Shape.rowMajor_val_two]
        have h0 : (i 0).val < 128 := (i 0).isLt
        have h1 : (i 1).val < 4096 := (i 1).isLt
        show ((0 * 128 + (i 0).val) * 4096 + (i 1).val) * 1 + 0 = (i 0).val * 4096 + (i 1).val
        omega)

/-- At region 0's entry, the bias column is the fifth argument read as a column. -/
private theorem W1_v1 :
    (W1 (F := Ideal) m c (Proc.devRef .tc main_v1) : S384x1.Idx → EReal)
      = Cert.Spec.b2A (m ((c : Thread nD τ).loc main_arg4)) := by
  have e : (W1 (F := Ideal) m c (Proc.devRef .tc main_v1) : S384x1.Idx → EReal)
      = shapeCast S384x1 (m ((c : Thread nD τ).loc main_arg4) : S384.Idx → EReal) shapeCasts_S384_S384x1 := by
    show StableHlo.after hostOps0 (W0 m c) (Proc.devRef .tc main_v1) = _
    after_results
    rfl
  rw [e]
  funext i
  unfold Cert.Spec.b2A
  exact shapeCast_apply _ shapeCasts_S384_S384x1 i (ix1 (i 0))
    (by rewrite [Shape.rowMajor_val_one, Shape.rowMajor_val_two]
        have h0 : (i 0).val < 384 := (i 0).isLt
        have h1 : (i 1).val < 1 := (i 1).isLt
        show (i 0).val = (i 0).val * 1 + (i 1).val
        omega)

/-- No operation before region 0 writes the weight, the matrices or the frame buffer. -/
private theorem W1_arg3 : W1 (F := Ideal) m c (Proc.devRef .tc main_arg3) = m ((c : Thread nD τ).loc main_arg3) := by
  show StableHlo.after hostOps0 (W0 m c) (Proc.devRef .tc main_arg3) = _
  after_results
private theorem W1_arg1 : W1 (F := Ideal) m c (Proc.devRef .tc main_arg1) = m ((c : Thread nD τ).loc main_arg1) := by
  show StableHlo.after hostOps0 (W0 m c) (Proc.devRef .tc main_arg1) = _
  after_results
private theorem W1_arg2 : W1 (F := Ideal) m c (Proc.devRef .tc main_arg2) = m ((c : Thread nD τ).loc main_arg2) := by
  show StableHlo.after hostOps0 (W0 m c) (Proc.devRef .tc main_arg2) = _
  after_results

/-- Region 0 leaves Z in its output array. -/
private theorem W2_v2 :
    (W2 (F := Ideal) m c (Proc.devRef .tc main_v2) : S384x4096.Idx → EReal)
      = Cert.Spec.ZA (m ((c : Thread nD τ).loc main_arg0)) (m ((c : Thread nD τ).loc main_arg3)) (m ((c : Thread nD τ).loc main_arg4)) := by
  have e : (W2 (F := Ideal) m c (Proc.devRef .tc main_v2) : S384x4096.Idx → EReal)
      = fun i => Cert.Spec.Zraw (W1 (F := Ideal) m c (Proc.devRef .tc main_arg3)) (W1 (F := Ideal) m c (Proc.devRef .tc main_v0))
          (W1 (F := Ideal) m c (Proc.devRef .tc main_v1)) (i 0) (i 1) :=
    (W2_arr (F := Ideal) m c 3).trans (arr0_eq (V1 (F := Ideal) m) c)
  rw [e, W1_v0, W1_v1, W1_arg3]
  rfl

/-- Region 0 leaves its input arrays and every other buffer as entered. -/
private theorem W2_v0 : W2 (F := Ideal) m c (Proc.devRef .tc main_v0) = W1 (F := Ideal) m c (Proc.devRef .tc main_v0) :=
  (W2_arr (F := Ideal) m c 1).trans (((dat0 (V1 (F := Ideal) m) c).arrAt_in 1 rfl _).trans (A_eq0 (V1 (F := Ideal) m) c 1))
private theorem W2_arg1 : W2 (F := Ideal) m c (Proc.devRef .tc main_arg1) = W1 (F := Ideal) m c (Proc.devRef .tc main_arg1) :=
  W2_of_ne (F := Ideal) m c main_arg1 (by decide)
private theorem W2_arg2 : W2 (F := Ideal) m c (Proc.devRef .tc main_arg2) = W1 (F := Ideal) m c (Proc.devRef .tc main_arg2) :=
  W2_of_ne (F := Ideal) m c main_arg2 (by decide)

/-- At region 1's entry, z is Z split into its three partitions of 128 rows. -/
private theorem W3_v3 :
    (W3 (F := Ideal) m c (Proc.devRef .tc main_v3) : S3x128x4096.Idx → EReal)
      = Cert.Spec.z3A (m ((c : Thread nD τ).loc main_arg0)) (m ((c : Thread nD τ).loc main_arg3)) (m ((c : Thread nD τ).loc main_arg4)) := by
  have e : (W3 (F := Ideal) m c (Proc.devRef .tc main_v3) : S3x128x4096.Idx → EReal)
      = shapeCast S3x128x4096 (W2 (F := Ideal) m c (Proc.devRef .tc main_v2) : S384x4096.Idx → EReal) shapeCasts_S384x4096_S3x128x4096 := by
    show StableHlo.after hostOps1 (W2 m c) (Proc.devRef .tc main_v3) = _
    after_results
    rfl
  rw [e, W2_v2]
  funext i
  unfold Cert.Spec.z3A
  exact shapeCast_apply _ shapeCasts_S384x4096_S3x128x4096 i (ix2 (Cert.Spec.row (i 0) (i 1)) (i 2))
    (by rewrite [Shape.rowMajor_val_two, Shape.rowMajor_val_three]
        have h0 : (i 0).val < 3 := (i 0).isLt
        have h1 : (i 1).val < 128 := (i 1).isLt
        have h2 : (i 2).val < 4096 := (i 2).isLt
        show ((i 0).val * 128 + (i 1).val) * 4096 + (i 2).val = ((i 0).val * 128 + (i 1).val) * 4096 + (i 2).val
        rfl)

/-- The reshape of Z writes z only. -/
private theorem W3_v0 : W3 (F := Ideal) m c (Proc.devRef .tc main_v0) = W2 (F := Ideal) m c (Proc.devRef .tc main_v0) := by
  show StableHlo.after hostOps1 (W2 m c) (Proc.devRef .tc main_v0) = _
  after_results
private theorem W3_arg1 : W3 (F := Ideal) m c (Proc.devRef .tc main_arg1) = W2 (F := Ideal) m c (Proc.devRef .tc main_arg1) := by
  show StableHlo.after hostOps1 (W2 m c) (Proc.devRef .tc main_arg1) = _
  after_results
private theorem W3_arg2 : W3 (F := Ideal) m c (Proc.devRef .tc main_arg2) = W2 (F := Ideal) m c (Proc.devRef .tc main_arg2) := by
  show StableHlo.after hostOps1 (W2 m c) (Proc.devRef .tc main_arg2) = _
  after_results

/-- Region 1 leaves the frame sum in its output array. -/
private theorem W4_v4 :
    (W4 (F := Ideal) m c (Proc.devRef .tc main_v4) : S128x4096.Idx → EReal)
      = Cert.Spec.SA (m ((c : Thread nD τ).loc main_arg2)) := by
  have e : (W4 (F := Ideal) m c (Proc.devRef .tc main_v4) : S128x4096.Idx → EReal)
      = fun i => Cert.Spec.Sraw (W3 (F := Ideal) m c (Proc.devRef .tc main_arg2)) (i 0) (i 1) :=
    (W4_arr (F := Ideal) m c 1).trans (arr1_eq (V3 (F := Ideal) m) c)
  rw [e, W3_arg2, W2_arg2, W1_arg2]
  rfl

/-- Region 1 leaves every buffer that is no array of its windows as entered. -/
private theorem W4_v3 : W4 (F := Ideal) m c (Proc.devRef .tc main_v3) = W3 (F := Ideal) m c (Proc.devRef .tc main_v3) :=
  W4_of_ne (F := Ideal) m c main_v3 (by decide)
private theorem W4_v0 : W4 (F := Ideal) m c (Proc.devRef .tc main_v0) = W3 (F := Ideal) m c (Proc.devRef .tc main_v0) :=
  W4_of_ne (F := Ideal) m c main_v0 (by decide)
private theorem W4_arg1 : W4 (F := Ideal) m c (Proc.devRef .tc main_arg1) = W3 (F := Ideal) m c (Proc.devRef .tc main_arg1) :=
  W4_of_ne (F := Ideal) m c main_arg1 (by decide)

/-- Region 2 leaves the clamped sum in its output array. -/
private theorem W5_v5 :
    (W5 (F := Ideal) m c (Proc.devRef .tc main_v5) : S128x4096.Idx → EReal)
      = Cert.Spec.OA (m ((c : Thread nD τ).loc main_arg0)) (m ((c : Thread nD τ).loc main_arg1)) (m ((c : Thread nD τ).loc main_arg2))
          (m ((c : Thread nD τ).loc main_arg3)) (m ((c : Thread nD τ).loc main_arg4)) := by
  have e : (W5 (F := Ideal) m c (Proc.devRef .tc main_v5) : S128x4096.Idx → EReal)
      = fun i => Cert.Spec.Oraw (W4 (F := Ideal) m c (Proc.devRef .tc main_v3)) (W4 (F := Ideal) m c (Proc.devRef .tc main_arg1))
          (W4 (F := Ideal) m c (Proc.devRef .tc main_v4)) (W4 (F := Ideal) m c (Proc.devRef .tc main_v0)) (i 0) (i 1) :=
    (W5_arr (F := Ideal) m c 4).trans (arr2_eq (V4 (F := Ideal) m) c)
  rw [e, W4_v3, W3_v3, W4_arg1, W3_arg1, W2_arg1, W1_arg1, W4_v4, W4_v0, W3_v0, W2_v0, W1_v0]
  rfl

end Steps

/-- What @main returns: the output with its leading unit axis put back. -/
theorem W6_main_v6 (m : (ℓ : Loc nD τ sig) → Buf (Elt Ideal) ℓ) (c : Dev nD) :
    (W6 (F := Ideal) m c (Proc.devRef .tc main_v6) : S1x128x4096.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  have e : (W6 (F := Ideal) m c (Proc.devRef .tc main_v6) : S1x128x4096.Idx → EReal)
      = broadcastInDim S1x128x4096 ![1, 2] bcast_S128x4096_S1x128x4096_1_2 (W5 (F := Ideal) m c (Proc.devRef .tc main_v5) : S128x4096.Idx → EReal) := by
    show StableHlo.after hostOps3 (W5 m c) (Proc.devRef .tc main_v6) = _
    after_results
  rw [e, W5_v5]
  funext i
  unfold Cert.Spec.G
  exact broadcastInDim_apply _ bcast_S128x4096_S1x128x4096_1_2 _ i (ix2 (i 1) (i 2)) (fun a => match a with
    | ⟨0, _⟩ => by show (i 1).val = if (128 : Nat) = 1 then 0 else (i 1).val; rw [if_neg (by decide)]
    | ⟨1, _⟩ => by show (i 2).val = if (4096 : Nat) = 1 then 0 else (i 2).val; rw [if_neg (by decide)])

end Cert.KernelIdeal.Hand

end
-- ==== Proof.RefVal.lean ====
/-
  At Ideal, the reference's result is the specification's function of the five argument arrays.

  Each stage of the reference is read at explicit coordinates. The two stages with no generated reading are read
  here: the sum over the frame axis and the partition axis (the initial value plus a double sum over the two
  reduced coordinates, by a bijection between the fibre of a result index and the pairs of reduced coordinates), and
  the concatenation along the frame axis (frame 0 is the product, frames 1..16 are the first sixteen frames of the
  frame buffer). The regrouping of the sum uses only that addition of extended reals is a commutative monoid.
-/
import proofs.«109399_j86242943304449_1_alg».proof.Proof.Gen.ReferenceIdeal.Read
import proofs.«109399_j86242943304449_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## A sum over the two leading axes of a rank-4 array -/

/-- The sum over axes 0 and 1 of a 17 × 3 × 128 × 4096 array, at (c, w): the initial value plus the double sum over
    the frame and the partition. The indices that drop to (c, w) are exactly the (t, p, c, w). -/
theorem hostReduceAdd_frames (h : S17x3x128x4096.ReducesTo [0, 1] S128x4096) (x : S17x3x128x4096.Idx → EReal)
    (init : EReal) (c : Fin 128) (w : Fin 4096) :
    Ideal.hostReduceAdd h x init (ix2 c w) = init + ∑ t : Fin 17, ∑ p : Fin 3, x (ix4 t p c w) := by
  unfold Ideal.hostReduceAdd
  congr 1
  rw [← Fintype.sum_prod_type (fun q : Fin 17 × Fin 3 => x (ix4 q.1 q.2 c w))]
  refine Finset.sum_bij' (fun i _ => ((i 0, i 1) : Fin 17 × Fin 3)) (fun q _ => ix4 q.1 q.2 c w) ?_ ?_ ?_ ?_ ?_
  · intro i _; exact Finset.mem_univ _
  · intro q _
    refine Finset.mem_filter.2 ⟨Finset.mem_univ _, ?_⟩
    funext b
    match b with
    | ⟨0, _⟩ => exact Fin.ext (h.drop_apply_val_of_eq (ix4 q.1 q.2 c w) 0 2)
    | ⟨1, _⟩ => exact Fin.ext (h.drop_apply_val_of_eq (ix4 q.1 q.2 c w) 1 3)
  · intro i hi
    have hd : h.drop i = ix2 c w := (Finset.mem_filter.1 hi).2
    have e0 : ((h.drop i 0 : Fin 128) : Nat) = (i 2 : Nat) := h.drop_apply_val_of_eq i 0 2
    have e1 : ((h.drop i 1 : Fin 4096) : Nat) = (i 3 : Nat) := h.drop_apply_val_of_eq i 1 3
    rw [hd] at e0 e1
    funext a
    match a with
    | ⟨0, _⟩ => rfl
    | ⟨1, _⟩ => rfl
    | ⟨2, _⟩ => exact Fin.ext e0
    | ⟨3, _⟩ => exact Fin.ext e1
  · intro q _; rfl
  · intro i hi
    have hd : h.drop i = ix2 c w := (Finset.mem_filter.1 hi).2
    have e0 : ((h.drop i 0 : Fin 128) : Nat) = (i 2 : Nat) := h.drop_apply_val_of_eq i 0 2
    have e1 : ((h.drop i 1 : Fin 4096) : Nat) = (i 3 : Nat) := h.drop_apply_val_of_eq i 1 3
    rw [hd] at e0 e1
    congr 1
    funext a
    match a with
    | ⟨0, _⟩ => rfl
    | ⟨1, _⟩ => rfl
    | ⟨2, _⟩ => exact Fin.ext e0.symm
    | ⟨3, _⟩ => exact Fin.ext e1.symm

/-! ## The stages at explicit coordinates -/

section Stages

open Cert.Spec (row frame Zraw Sraw Draw Oraw xvA b2A ZA z3A SA OA G)

variable (x0 : (⟨S1x128x4096x1, .f32⟩ : BufTy).Contents (Elt Ideal)) (x1 : (⟨S3x4096x4096, .f32⟩ : BufTy).Contents (Elt Ideal))
  (x2 : (⟨S17x3x128x4096, .f32⟩ : BufTy).Contents (Elt Ideal)) (x3 : (⟨S384x128, .f32⟩ : BufTy).Contents (Elt Ideal))
  (x4 : (⟨S384, .f32⟩ : BufTy).Contents (Elt Ideal))

/-- The argument with its two unit axes dropped: entry (k, v) is the argument at (0, k, v, 0). -/
theorem v0_at (k : Fin 128) (v : Fin 4096) : val_main_v0 (F := Ideal) x0 (ix2 k v) = x0 (ix4 0 k v 0) := by
  rw [val_main_v0_apply]
  congr 1
  funext a
  match a with
  | ⟨0, _⟩ => rfl
  | ⟨1, _⟩ => exact Fin.ext (by show (k.val * 4096 + v.val) / 4096 % 128 = k.val; have := k.isLt; have := v.isLt; omega)
  | ⟨2, _⟩ => exact Fin.ext (by show (k.val * 4096 + v.val) / 1 % 4096 = v.val; have := k.isLt; have := v.isLt; omega)
  | ⟨3, _⟩ => rfl

/-- The first product: row j of W against column v of xv. -/
theorem v1_at (j : Fin 384) (v : Fin 4096) :
    val_main_v1 (F := Ideal) x0 x3 (ix2 j v) = ∑ k : Fin 128, x3 (ix2 j k) * x0 (ix4 0 k v 0) := by
  rw [val_main_v1_apply]
  refine Finset.sum_congr rfl fun k _ => ?_
  have el : lidx_main_v1 (ix2 j v) k = ix2 j k := by
    funext a; match a with | ⟨0, _⟩ => rfl | ⟨1, _⟩ => rfl
  have er : ridx_main_v1 (ix2 j v) k = ix2 k v := by
    funext a; match a with | ⟨0, _⟩ => rfl | ⟨1, _⟩ => rfl
  rw [el, er, v0_at]

/-- The bias broadcast along the columns. -/
theorem v3_at (j : Fin 384) (v : Fin 4096) : val_main_v3 (F := Ideal) x4 (ix2 j v) = x4 (ix1 j) := by
  rw [val_main_v3_apply, val_main_v2_apply]
  congr 1
  funext a; match a with | ⟨0, _⟩ => rfl

/-- The product plus the bias is the specification's Z. -/
theorem v4_at (j : Fin 384) (v : Fin 4096) :
    val_main_v4 (F := Ideal) x0 x3 x4 (ix2 j v) = Zraw x3 (xvA x0) (b2A x4) j v := by
  rw [val_main_v4_apply]
  show val_main_v1 (F := Ideal) x0 x3 (ix2 j v) + val_main_v3 (F := Ideal) x4 (ix2 j v) = _
  rw [v1_at, v3_at]
  rfl

/-- The 384 rows split into three partitions of 128: entry (p, c, v) is row 128 p + c. -/
theorem v5_at (p : Fin 3) (c : Fin 128) (v : Fin 4096) :
    val_main_v5 (F := Ideal) x0 x3 x4 (ix3 p c v) = z3A x0 x3 x4 (ix3 p c v) := by
  rw [val_main_v5_apply]
  have e : idx_main_v5 (ix3 p c v) = ix2 (row p c) v := by
    funext a
    match a with
    | ⟨0, _⟩ => exact Fin.ext (by
        show ((p.val * 128 + c.val) * 4096 + v.val) / 4096 = p.val * 128 + c.val
        have := p.isLt; have := c.isLt; have := v.isLt; omega)
    | ⟨1, _⟩ => exact Fin.ext (by
        show ((p.val * 128 + c.val) * 4096 + v.val) % 4096 = v.val
        have := p.isLt; have := c.isLt; have := v.isLt; omega)
  rw [e, v4_at]
  rfl

/-- The batched product: partition p's rows against partition p's matrix. -/
theorem v6_at (p : Fin 3) (c : Fin 128) (w : Fin 4096) :
    val_main_v6 (F := Ideal) x0 x1 x3 x4 (ix3 p c w) = Draw (z3A x0 x3 x4) x1 p c w := by
  rw [val_main_v6_apply]
  unfold Cert.Spec.Draw
  refine Finset.sum_congr rfl fun k _ => ?_
  have el : lidx_main_v6 (ix3 p c w) k = ix3 p c k := by
    funext a; match a with | ⟨0, _⟩ => rfl | ⟨1, _⟩ => rfl | ⟨2, _⟩ => rfl
  have er : ridx_main_v6 (ix3 p c w) k = ix3 p k w := by
    funext a; match a with | ⟨0, _⟩ => rfl | ⟨1, _⟩ => rfl | ⟨2, _⟩ => rfl
  rw [el, er, v5_at]

/-- The product with a leading unit axis. -/
theorem v7_at (p : Fin 3) (c : Fin 128) (w : Fin 4096) :
    val_main_v7 (F := Ideal) x0 x1 x3 x4 (ix4 0 p c w) = Draw (z3A x0 x3 x4) x1 p c w := by
  rw [val_main_v7_apply]
  have e : idx_main_v7 (ix4 (0 : Fin 1) p c w) = ix3 p c w := by
    funext a; match a with | ⟨0, _⟩ => rfl | ⟨1, _⟩ => rfl | ⟨2, _⟩ => rfl
  rw [e, v6_at]

/-- The first sixteen frames of the frame buffer. -/
theorem v8_at (t : Fin 16) (p : Fin 3) (c : Fin 128) (w : Fin 4096) :
    val_main_v8 (F := Ideal) x2 (ix4 t p c w) = x2 (ix4 (frame t) p c w) := by
  rw [val_main_v8_apply]
  congr 1
  funext a; match a with | ⟨0, _⟩ => rfl | ⟨1, _⟩ => rfl | ⟨2, _⟩ => rfl | ⟨3, _⟩ => rfl

/-- Frame 0 of the concatenation is the product. -/
theorem v9_zero (p : Fin 3) (c : Fin 128) (w : Fin 4096) :
    val_main_v9 (F := Ideal) x0 x1 x2 x3 x4 (ix4 0 p c w) = Draw (z3A x0 x3 x4) x1 p c w := by
  unfold val_main_v9
  rw [concatenate_pair_apply_left (s₁ := S1x3x128x4096) (s₂ := S16x3x128x4096) (0 : Fin S17x3x128x4096.rank) _ _ _ (ix4 (0 : Fin 17) p c w) rfl (ix4 (0 : Fin 1) p c w)
    (fun b => by match b with | ⟨0, _⟩ => rfl | ⟨1, _⟩ => rfl | ⟨2, _⟩ => rfl | ⟨3, _⟩ => rfl)]
  exact v7_at x0 x1 x3 x4 p c w

/-- Frame t + 1 of the concatenation is frame t of the frame buffer. -/
theorem v9_succ (t : Fin 16) (p : Fin 3) (c : Fin 128) (w : Fin 4096) :
    val_main_v9 (F := Ideal) x0 x1 x2 x3 x4 (ix4 t.succ p c w) = x2 (ix4 (frame t) p c w) := by
  unfold val_main_v9
  rw [concatenate_pair_apply_right (s₁ := S1x3x128x4096) (s₂ := S16x3x128x4096) (0 : Fin S17x3x128x4096.rank) _ _ _ (ix4 (t.succ : Fin 17) p c w) rfl rfl (ix4 t p c w)
    (fun b hb => by
      match b with
      | ⟨0, _⟩ => exact absurd rfl hb
      | ⟨1, _⟩ => rfl
      | ⟨2, _⟩ => rfl
      | ⟨3, _⟩ => rfl)
    (by show t.val + 1 = (t.succ : Fin 17).val; rfl)]
  exact v8_at x2 t p c w

/-- The sum over the seventeen frames and three partitions: the partition sum of the products plus the frame sum. -/
theorem v10_at (c : Fin 128) (w : Fin 4096) :
    val_main_v10 (F := Ideal) x0 x1 x2 x3 x4 (ix2 c w)
      = (∑ p : Fin 3, Draw (z3A x0 x3 x4) x1 p c w) + Sraw x2 c w := by
  unfold val_main_v10
  rw [hostReduceAdd_apply, hostReduceAdd_frames, val_main_cst_apply]
  show Ideal.ofBits .f32 0x00000000#32 + _ = _
  rw [Ideal.ofBits_zero_f32, zero_add, Fin.sum_univ_succ]
  unfold Cert.Spec.Sraw
  rw [Finset.sum_comm (s := (Finset.univ : Finset (Fin 3))) (t := (Finset.univ : Finset (Fin 16)))]
  congr 1
  · exact Finset.sum_congr rfl fun p _ => v9_zero x0 x1 x2 x3 x4 p c w
  · exact Finset.sum_congr rfl fun t _ => Finset.sum_congr rfl fun p _ => v9_succ x0 x1 x2 x3 x4 t p c w

end Stages

theorem ref_eq (x0 : (⟨S1x128x4096x1, .f32⟩ : BufTy).Contents (Elt Ideal)) (x1 : (⟨S3x4096x4096, .f32⟩ : BufTy).Contents (Elt Ideal))
    (x2 : (⟨S17x3x128x4096, .f32⟩ : BufTy).Contents (Elt Ideal)) (x3 : (⟨S384x128, .f32⟩ : BufTy).Contents (Elt Ideal))
    (x4 : (⟨S384, .f32⟩ : BufTy).Contents (Elt Ideal)) :
    val_main_v13 (F := Ideal) x0 x1 x2 x3 x4 = Cert.Spec.G x0 x1 x2 x3 x4 := by
  funext i
  obtain ⟨a, c, w, rfl⟩ : ∃ (a : Fin 1) (c : Fin 128) (w : Fin 4096), i = ix3 a c w := ⟨i 0, i 1, i 2, eq_ix3 i⟩
  have e13 : idx_main_v13 (ix3 a c w) = ix2 c w := by
    funext b; match b with | ⟨0, _⟩ => rfl | ⟨1, _⟩ => rfl
  rw [val_main_v13_apply, e13, val_main_v12_apply, val_main_v11_apply, val_main_call0_v0_apply, val_main_call0_cst_apply,
    v10_at, v0_at]
  show max (_ + _) (Ideal.ofBits .f32 0x00000000#32) = _
  rw [Ideal.ofBits_zero_f32]
  rfl

end Cert.ReferenceIdeal.RefValue

end
-- ==== Proof.lean ====
/-
  Kernel against reference, over the extended reals.

  Both programs compute, for each channel c < 128 and column w < 4096,

      max (((Σ_p Σ_v z[p, c, v] · A[p, v, w]) + Σ_p Σ_{t < 16} fifo[t, p, c, w]) + x[0, c, w, 0], 0),
      z[p, c, v] = (Σ_k W[128 p + c, k] · x[0, k, v, 0]) + b[128 p + c].

  The kernel does it in three regions — Z = W · xv + b at one point; the frame sum tile by tile; the partition sum
  of z[p] · A[p] accumulated in a scratch buffer over three points per tile, then the frame sum and xv added and the
  result clamped below at zero —, the reference as one chain of host operations in which the products join the
  sixteen kept frames as a seventeenth and everything is summed at once.  The two differ only in how the sums are
  grouped, and addition on the extended reals is commutative and associative, so no finiteness of the inputs is used.

  Each program's frame (it runs to the end, faults nowhere, leaves its arguments unchanged) is read off its run: the
  kernel's from the launch over its six items, the reference's from its chain of host operations.  The idealization
  rewrote no operation, so there is nothing to preserve.
-/
import proofs.«109399_j86242943304449_1_alg».proof.Defs
import proofs.«109399_j86242943304449_1_alg».proof.Proof.Gen.Kernel
import proofs.«109399_j86242943304449_1_alg».proof.Proof.Gen.KernelIdeal
import proofs.«109399_j86242943304449_1_alg».proof.Proof.Gen.ReferenceIdeal
import proofs.«109399_j86242943304449_1_alg».proof.Proof.Gen.Pre_finite_inputs
import proofs.«109399_j86242943304449_1_alg».proof.Proof.Gen.ReferenceIdeal.Run
import proofs.«109399_j86242943304449_1_alg».proof.Proof.Gen.ReferenceIdeal.Read
import proofs.«109399_j86242943304449_1_alg».proof.Proof.K.Run
import proofs.«109399_j86242943304449_1_alg».proof.Proof.KI.Run
import proofs.«109399_j86242943304449_1_alg».proof.Proof.KI.KVal
import proofs.«109399_j86242943304449_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame (F := Bits) m ρ

/-- The idealized kernel runs and leaves its arguments as launched. -/
theorem frame_ki : Cert.frame_KernelIdeal := fun m ρ _ => Cert.KernelIdeal.Hand.frame (F := Ideal) m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result at the specification's
    function of those arguments: the kernel's last buffer is that function (the fold through its regions), the
    reference's result term is that function (stage by stage). -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨?_, ?_, ?_, ?_, ?_, ?_⟩)
      (Cert.KernelIdeal.Hand.run_main (F := Ideal) m ρ)
    · exact (h c _ (Cert.KernelIdeal.Hand.mem_uc Cert.KernelIdeal.main_v6 (by decide))).trans
        (Cert.KernelIdeal.Hand.W6_main_v6 m c)
    · exact (h c _ (Cert.KernelIdeal.Hand.mem_uc Cert.KernelIdeal.main_arg0 (by decide))).trans
        (Cert.KernelIdeal.Hand.W6_main_arg0 m c)
    · exact (h c _ (Cert.KernelIdeal.Hand.mem_uc Cert.KernelIdeal.main_arg1 (by decide))).trans
        (Cert.KernelIdeal.Hand.W6_main_arg1 m c)
    · exact (h c _ (Cert.KernelIdeal.Hand.mem_uc Cert.KernelIdeal.main_arg2 (by decide))).trans
        (Cert.KernelIdeal.Hand.W6_main_arg2 m c)
    · exact (h c _ (Cert.KernelIdeal.Hand.mem_uc Cert.KernelIdeal.main_arg3 (by decide))).trans
        (Cert.KernelIdeal.Hand.W6_main_arg3 m c)
    · exact (h c _ (Cert.KernelIdeal.Hand.mem_uc Cert.KernelIdeal.main_arg4 (by decide))).trans
        (Cert.KernelIdeal.Hand.W6_main_arg4 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
